-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x128 : Shape := ⟨4, ![4, 64, 64, 128]⟩
abbrev S_ : Shape := ⟨0, ![]⟩

class Facts : Prop where
  bcast_S_S4x64x64x128 : S_.BroadcastsInDim S4x64x64x128 (![] : Fin 0 → Fin S4x64x64x128.rank)
  reducesTo_S4x64x64x128_S_d0_1_2_3 : S4x64x64x128.ReducesTo [0, 1, 2, 3] S_
  h_S_ : 0 < S_.numel

variable [Facts]

def fn {F : FTy → Type} [FloatOps F] (main_arg0 : FVec F S4x64x64x128 .f32) (main_arg1 : FVec F S4x64x64x128 .f32) : IVec S_ 1 :=
  let main_v0 : FVec F S4x64x64x128 .f32 := Host.absf main_arg0
  let main_cst : FVec F S_ .f32 := constant S_ .f32 0x7F800000#32
  let main_v1 : FVec F S4x64x64x128 .f32 := broadcastInDim S4x64x64x128 ![] bcast_S_S4x64x64x128 main_cst
  let main_v2 : IVec S4x64x64x128 1 := cmpf .olt main_v0 main_v1
  let main_c : IVec S_ 1 := constantI S_ 1 1#1
  let main_v3 : IVec S_ 1 := (fun x v => Host.reduce IntOp.andi x v reducesTo_S4x64x64x128_S_d0_1_2_3 h_S_) main_v2 main_c
  let main_v4 : FVec F S4x64x64x128 .f32 := Host.absf main_arg1
  let main_cst_0 : FVec F S_ .f32 := constant S_ .f32 0x7F800000#32
  let main_v5 : FVec F S4x64x64x128 .f32 := broadcastInDim S4x64x64x128 ![] bcast_S_S4x64x64x128 main_cst_0
  let main_v6 : IVec S4x64x64x128 1 := cmpf .olt main_v4 main_v5
  let main_c_1 : IVec S_ 1 := constantI S_ 1 1#1
  let main_v7 : IVec S_ 1 := (fun x v => Host.reduce IntOp.andi x v reducesTo_S4x64x64x128_S_d0_1_2_3 h_S_) main_v6 main_c_1
  let main_v8 : IVec S_ 1 := andi main_v3 main_v7
  main_v8
-- ==== Kernel.lean ====
abbrev S4x64x64x128 : Shape := ⟨4, ![4, 64, 64, 128]⟩
abbrev S_ : Shape := ⟨0, ![]⟩
abbrev S4x128 : Shape := ⟨2, ![4, 128]⟩
abbrev S4x1x1x128 : Shape := ⟨4, ![4, 1, 1, 128]⟩
abbrev S4x4096x128 : Shape := ⟨3, ![4, 4096, 128]⟩
abbrev S4x4096 : Shape := ⟨2, ![4, 4096]⟩
abbrev S4x4096x1 : Shape := ⟨3, ![4, 4096, 1]⟩
abbrev S1x1024x128 : Shape := ⟨3, ![1, 1024, 128]⟩
abbrev S1x4096x128 : Shape := ⟨3, ![1, 4096, 128]⟩
abbrev S1x1024x1 : Shape := ⟨3, ![1, 1024, 1]⟩
abbrev S1x1024x4096 : Shape := ⟨3, ![1, 1024, 4096]⟩
abbrev S1x1024 : Shape := ⟨2, ![1, 1024]⟩
abbrev S4 : Shape := ⟨1, ![4]⟩

abbrev nBuf : Space → Nat
  | .hbm => 59
  | .vmem => 14
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S_, .f32⟩
  | .hbm, ⟨3, _⟩ => ⟨S4x128, .f32⟩
  | .hbm, ⟨4, _⟩ => ⟨S4x1x1x128, .f32⟩
  | .hbm, ⟨5, _⟩ => ⟨S_, .f32⟩
  | .hbm, ⟨6, _⟩ => ⟨S4x1x1x128, .f32⟩
  | .hbm, ⟨7, _⟩ => ⟨S4x1x1x128, .f32⟩
  | .hbm, ⟨8, _⟩ => ⟨S4x64x64x128, .f32⟩
  | .hbm, ⟨9, _⟩ => ⟨S4x64x64x128, .f32⟩
  | .hbm, ⟨10, _⟩ => ⟨S4x64x64x128, .f32⟩
  | .hbm, ⟨11, _⟩ => ⟨S4x64x64x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x1, .f32⟩
  | .hbm, ⟨19, _⟩ => ⟨S4x4096x128, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x128, .f32⟩
  | .hbm, ⟨28, _⟩ => ⟨S4x4096x128, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x128, .f32⟩
  | .hbm, ⟨33, _⟩ => ⟨S4x4096x128, .f32⟩
  | .hbm, ⟨34, _⟩ => ⟨S4x4096x1, .f32⟩
  | .hbm, ⟨35, _⟩ => ⟨S4x4096x1, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S_, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4, .f32⟩
  | .local _ .vmem, ⟨0, _⟩ => ⟨S1x1024x128, .f32⟩
  | .local _ .vmem, ⟨1, _⟩ => ⟨S1x1024x128, .f32⟩
  | .local _ .vmem, ⟨2, _⟩ => ⟨S1x4096x128, .f32⟩
  | .local _ .vmem, ⟨3, _⟩ => ⟨S1x4096x128, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x128, .f32⟩
  | .local _ .vmem, ⟨7, _⟩ => ⟨S1x1024x128, .f32⟩
  | .local _ .vmem, ⟨8, _⟩ => ⟨S1x4096x128, .f32⟩
  | .local _ .vmem, ⟨9, _⟩ => ⟨S1x4096x128, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | _, _ => ⟨S4x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  reducesTo_S4x64x64x128_S4x128_d1_2 : S4x64x64x128.ReducesTo [1, 2] S4x128
  h_S_ : 0 < S_.numel
  bcast_S4x128_S4x1x1x128_0_3 : S4x128.BroadcastsInDim S4x1x1x128 (![0, 3] : Fin 2 → Fin S4x1x1x128.rank)
  bcast_S_S4x1x1x128 : S_.BroadcastsInDim S4x1x1x128 (![] : Fin 0 → Fin S4x1x1x128.rank)
  bcast_S4x1x1x128_S4x64x64x128_0_1_2_3 : S4x1x1x128.BroadcastsInDim S4x64x64x128 (![0, 1, 2, 3] : Fin 4 → Fin S4x64x64x128.rank)
  shapeCasts_S4x64x64x128_S4x4096x128 : S4x64x64x128.ShapeCasts S4x4096x128
  reducesTo_S4x4096x128_S4x4096_d2 : S4x4096x128.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x128_0_1_2 : S4x4096x1.BroadcastsInDim S4x4096x128 (![0, 1, 2] : Fin 3 → Fin S4x4096x128.rank)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S1x4096x128 : S1x4096x128.ShapeCasts S1x4096x128
  reduces_S1x1024x4096_S1x1024 : S1x1024x4096.Reduces [2] S1x1024
  shapeCasts_S1x1024_S1x1024x1 : S1x1024.ShapeCasts S1x1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  broadcasts_S1x1024x1_S1x1024x4096 : S1x1024x1.Broadcasts S1x1024x4096
  shapeCasts_S4x4096x1_S4x4096 : S4x4096x1.ShapeCasts S4x4096
  bcast_S_S4x4096 : S_.BroadcastsInDim S4x4096 (![] : Fin 0 → Fin S4x4096.rank)
  reducesTo_S4x4096_S4_d1 : S4x4096.ReducesTo [1] S4
  bcast_S_S4 : S_.BroadcastsInDim S4 (![] : Fin 0 → Fin S4.rank)
  dot_S1x1024x128_S1x4096x128_S1x1024x4096_2_2_1_1_0_0_wf : DotDims.WF S1x1024x128 S1x4096x128 S1x1024x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .f32 = 32 ∨ (Rect.block (s := S4x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .f32 = 32 ∨ (Rect.block (s := S4x4096x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x4096x1.size a
  hwx1_2 : ∀ i : grid1.Coords, EltTy.bits .f32 = 32 ∨ (Rect.block (s := S4x4096x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S4x4096x1.size a
  hwx1_3 : ∀ i : grid1.Coords, EltTy.bits .f32 = 32 ∨ (Rect.block (s := S4x4096x1) S1x1024x1.size (cc1_transform_3 i) (hinb1_3 i)).WholeWords (EltTy.packing .f32)

variable [Facts₀]

def dot_S1x1024x128_S1x4096x128_S1x1024x4096_2_2_1_1_0_0 : DotDims S1x1024x128 S1x4096x128 S1x1024x4096 where
  lhsContracting := [2]
  rhsContracting := [2]
  lhsNonContracting := [1]
  rhsNonContracting := [1]
  lhsBatch := [0]
  rhsBatch := [0]
  wf := dot_S1x1024x128_S1x4096x128_S1x1024x4096_2_2_1_1_0_0_wf

abbrev win0_0 : Pipeline.Window sig grid0 :=
  Pipeline.Window.ofSpec (Memref.whole main_v21) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x64x64x128 : Shape := ⟨4, ![4, 64, 64, 128]⟩
abbrev S4x128x64x64 : Shape := ⟨4, ![4, 128, 64, 64]⟩
abbrev S4x128x4096 : Shape := ⟨3, ![4, 128, 4096]⟩
abbrev S_ : Shape := ⟨0, ![]⟩
abbrev S4x128 : Shape := ⟨2, ![4, 128]⟩
abbrev S4x128x1x1 : Shape := ⟨4, ![4, 128, 1, 1]⟩
abbrev S4x4096 : Shape := ⟨2, ![4, 4096]⟩
abbrev S4x1x4096 : Shape := ⟨3, ![4, 1, 4096]⟩
abbrev S4x4096x4096 : Shape := ⟨3, ![4, 4096, 4096]⟩
abbrev S4x4096x1 : Shape := ⟨3, ![4, 4096, 1]⟩
abbrev S4 : Shape := ⟨1, ![4]⟩

abbrev nBuf : Space → Nat
  | .hbm => 70
  | .vmem => 0
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S4x128x64x64, .f32⟩
  | .hbm, ⟨3, _⟩ => ⟨S4x128x64x64, .f32⟩
  | .hbm, ⟨4, _⟩ => ⟨S4x128x4096, .f32⟩
  | .hbm, ⟨5, _⟩ => ⟨S_, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128x1x1, .f32⟩
  | .hbm, ⟨11, _⟩ => ⟨S4x128x64x64, .f32⟩
  | .hbm, ⟨12, _⟩ => ⟨S4x128x64x64, .f32⟩
  | .hbm, ⟨13, _⟩ => ⟨S4x128x64x64, .f32⟩
  | .hbm, ⟨14, _⟩ => ⟨S4x128x64x64, .f32⟩
  | .hbm, ⟨15, _⟩ => ⟨S4x128x4096, .f32⟩
  | .hbm, ⟨16, _⟩ => ⟨S4x128x4096, .f32⟩
  | .hbm, ⟨17, _⟩ => ⟨S4x128x4096, .f32⟩
  | .hbm, ⟨18, _⟩ => ⟨S_, .f32⟩
  | .hbm, ⟨19, _⟩ => ⟨S4x4096, .f32⟩
  | .hbm, ⟨20, _⟩ => ⟨S4x1x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x128x4096, .f32⟩
  | .hbm, ⟨26, _⟩ => ⟨S4x128x4096, .f32⟩
  | .hbm, ⟨27, _⟩ => ⟨S4x128x4096, .f32⟩
  | .hbm, ⟨28, _⟩ => ⟨S_, .f32⟩
  | .hbm, ⟨29, _⟩ => ⟨S4x4096, .f32⟩
  | .hbm, ⟨30, _⟩ => ⟨S4x1x4096, .f32⟩
  | .hbm, ⟨31, _⟩ => ⟨S4x1x4096, .f32⟩
  | .hbm, ⟨32, _⟩ => ⟨S_, .f32⟩
  | .hbm, ⟨33, _⟩ => ⟨S4x1x4096, .f32⟩
  | .hbm, ⟨34, _⟩ => ⟨S4x1x4096, .f32⟩
  | .hbm, ⟨35, _⟩ => ⟨S4x128x4096, .f32⟩
  | .hbm, ⟨36, _⟩ => ⟨S4x128x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S_, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | _, _ => ⟨S4x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  transposes_S4x64x64x128_S4x128x64x64_0_3_1_2 : S4x64x64x128.Transposes [0, 3, 1, 2] S4x128x64x64
  shapeCasts_S4x128x64x64_S4x128x4096 : S4x128x64x64.ShapeCasts S4x128x4096
  reducesTo_S4x128x4096_S4x128_d2 : S4x128x4096.ReducesTo [2] S4x128
  h_S_ : 0 < S_.numel
  bcast_S_S4x128 : S_.BroadcastsInDim S4x128 (![] : Fin 0 → Fin S4x128.rank)
  bcast_S4x128_S4x128x1x1_0_1 : S4x128.BroadcastsInDim S4x128x1x1 (![0, 1] : Fin 2 → Fin S4x128x1x1.rank)
  bcast_S4x128x1x1_S4x128x64x64_0_1_2_3 : S4x128x1x1.BroadcastsInDim S4x128x64x64 (![0, 1, 2, 3] : Fin 4 → Fin S4x128x64x64.rank)
  reducesTo_S4x128x4096_S4x4096_d1 : S4x128x4096.ReducesTo [1] S4x4096
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x128x4096_0_1_2 : S4x1x4096.BroadcastsInDim S4x128x4096 (![0, 1, 2] : Fin 3 → Fin S4x128x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  dot_S4x128x4096_S4x128x4096_S4x4096x4096_1_1_2_2_0_0_wf : DotDims.WF S4x128x4096 S4x128x4096 S4x4096x4096 [1] [1] [2] [2] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf

class Facts : Prop extends Facts₀ where

variable [Facts]
-- ==== Proof.KernelFns.lean ====
/-
  The kernel's two regions and its closing host operations as whole-array functions at the ideal instance.

  Region 0 writes, for every query position `(b, n)`, the largest cosine of its row: the fold of `max` from `-∞`
  over the key positions `m` of `Σ_k A[b, n, k] · B[b, m, k]`. Region 1 writes the row's sum of weights
  `Σ_m exp ((1 - (1 - cos) / ((1 - max) + e)) / h)` from the same two arrays and region 0's result. The closing
  host operations turn the two `4 × 4096 × 1` arrays into the four results: minus the logarithm of the mean over
  `n` of `exp ((e / ((1 - max) + e)) / h) / sum`.
-/
import proofs.«160792_j27754078667510_1_alg».proof.KernelIdeal
import Idealize.ShloMosaic.PureOps.Ideal
import Idealize.ShloMosaic.Lib.ValueIdx

noncomputable section

namespace Cert.KernelIdeal.Fns

open Idealize.ShloMosaic Idealize.ShloMosaic.ValueIdx Cert.KernelIdeal

/-- The pattern of `1.0`. -/
abbrev One : EReal := Ideal.ofBits .f32 0x3F800000#32
/-- The pattern of the distance guard `1e-3`. -/
abbrev Em : EReal := Ideal.ofBits .f32 0x3A83126F#32
/-- The pattern of the bandwidth `1e-1`. -/
abbrev Hp : EReal := Ideal.ofBits .f32 0x3DCCCCCD#32

/-- The inner product of query position `(b, n)` of `A` with key position `(b, m)` of `B` over the 128 channels. -/
def dotAt (A B : FVec Ideal S4x4096x128 .f32) (b : Fin 4) (n m : Fin 4096) : EReal :=
  ∑ k : Fin 128, (A (ix3 b n k) : EReal) * (B (ix3 b m k) : EReal)

/-- Region 0's result array: each row's largest inner product. -/
def G0 (A B : FVec Ideal S4x4096x128 .f32) : FVec Ideal S4x4096x1 .f32 := fun i =>
  (Finset.univ : Finset (Fin 4096)).fold max (Ideal.ofBits .f32 0xFF800000#32)
    (fun m => dotAt A B ⟨(i 0).val, (i 0).isLt⟩ ⟨(i 1).val, (i 1).isLt⟩ m)

/-- Region 1's result array: each row's sum of weights, from the row's largest inner product `Mx`. -/
def G1 (A B : FVec Ideal S4x4096x128 .f32) (Mx : FVec Ideal S4x4096x1 .f32) : FVec Ideal S4x4096x1 .f32 := fun i =>
  ∑ m : Fin 4096, Ideal.exp (Ideal.div (One - Ideal.div (One - dotAt A B ⟨(i 0).val, (i 0).isLt⟩ ⟨(i 1).val, (i 1).isLt⟩ m)
      ((One - (Mx (ix3 ⟨(i 0).val, (i 0).isLt⟩ ⟨(i 1).val, (i 1).isLt⟩ (0 : Fin 1)) : EReal)) + Em)) Hp)

/-- The closing host operations at result index `b`, from region 0's array `Mx` and region 1's array `Sw`. -/
def tailAt (Mx Sw : FVec Ideal S4x4096x1 .f32) (b : Fin 4) : EReal :=
  -(Ideal.log (Ideal.div
      (Ideal.ofBits .f32 0x00000000#32
        + ∑ n : Fin 4096, Ideal.div
            (Ideal.exp (Ideal.div (Ideal.div Em ((One - (Mx (ix3 b n (0 : Fin 1)) : EReal)) + Em)) Hp))
            (Sw (ix3 b n (0 : Fin 1)) : EReal))
      (Ideal.ofBits .f32 0x45800000#32)))

theorem G0_apply (A B : FVec Ideal S4x4096x128 .f32) (b : Fin 4) (n : Fin 4096) :
    G0 A B (ix3 b n (0 : Fin 1)) = (Finset.univ : Finset (Fin 4096)).fold max (Ideal.ofBits .f32 0xFF800000#32) (fun m => dotAt A B b n m) := rfl

theorem G1_apply (A B : FVec Ideal S4x4096x128 .f32) (Mx : FVec Ideal S4x4096x1 .f32) (b : Fin 4) (n : Fin 4096) :
    G1 A B Mx (ix3 b n (0 : Fin 1)) = ∑ m : Fin 4096, Ideal.exp (Ideal.div (One - Ideal.div (One - dotAt A B b n m)
      ((One - (Mx (ix3 b n (0 : Fin 1)) : EReal)) + Em)) Hp) := rfl

end Cert.KernelIdeal.Fns

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Consts.lean ====
/-
  The single-precision constants of the two programs, read as real numbers.

  Both programs carry the same five patterns: the normalisation guard 1e-10, the distance guard 1e-3, the
  bandwidth 1e-1, the count 4096 and (as the initial value of a minimum) plus infinity. None of the three
  decimals is a dyadic rational, so each pattern denotes the single-precision number NEAREST the decimal; what
  matters below is only that the same number stands on both sides and that it is positive.
-/
import proofs.«160792_j27754078667510_1_alg».proof.Proof.LibCoe

noncomputable section

namespace Cert.Consts

open Idealize.ShloMosaic

/-- The single-precision number nearest `10⁻¹⁰`: exponent field 93, fraction `0x5BE6FF`, that is
    `(2²³ + 6022911) · 2⁻⁵⁷`. -/
def epsN : ℝ := 14411519 / 144115188075855872

theorem epsN_pos : 0 < epsN := by unfold epsN; norm_num

theorem ofBits_epsN : Ideal.ofBits .f32 0x2EDBE6FF#32 = ((epsN : ℝ) : EReal) := by
  unfold epsN
  simp [Ideal.ofBits, Ideal.ieee, -EReal.coe_mul]; norm_num

/-- The single-precision number nearest `10⁻³`: exponent field 117, fraction `0x03126F`, that is
    `(2²³ + 201327) · 2⁻³³`. -/
def eM : ℝ := 8589935 / 8589934592

theorem eM_pos : 0 < eM := by unfold eM; norm_num

theorem ofBits_eM : Ideal.ofBits .f32 0x3A83126F#32 = ((eM : ℝ) : EReal) := by
  unfold eM
  simp [Ideal.ofBits, Ideal.ieee, -EReal.coe_mul]; norm_num

/-- The single-precision number nearest `10⁻¹`: exponent field 123, fraction `0x4CCCCD`, that is
    `(2²³ + 5033165) · 2⁻²⁷`. -/
def hP : ℝ := 13421773 / 134217728

theorem hP_pos : 0 < hP := by unfold hP; norm_num

theorem ofBits_hP : Ideal.ofBits .f32 0x3DCCCCCD#32 = ((hP : ℝ) : EReal) := by
  unfold hP
  simp [Ideal.ofBits, Ideal.ieee, -EReal.coe_mul]; norm_num

/-- The pattern of `4096.0` (exponent field 139, fraction 0) denotes `2¹²`. -/
theorem ofBits_4096 : Ideal.ofBits .f32 0x45800000#32 = ((4096 : ℝ) : EReal) := by
  simp [Ideal.ofBits, Ideal.ieee, -EReal.coe_mul]; norm_num

/-- The pattern of `+∞` (exponent field all ones, fraction 0) denotes `⊤`. -/
theorem ofBits_pos_inf : Ideal.ofBits .f32 0x7F800000#32 = (⊤ : EReal) := by
  simp [Ideal.ofBits, Ideal.ieee]

end Cert.Consts

end
-- ==== Proof.RowDefs.lean ====
/-
  One row of the affinity matrix, over the real numbers: the definitions.

  Fix a row of cosines `c_m` (m = 0 … 4095) and two numbers, the guard `e` and the bandwidth `h`. The row's
  value is the weight at the smallest distance over the sum of all weights,
  `exp ((e / ((1 - max c) + e)) / h) / Σ_m exp ((1 - (1 - c_m) / ((1 - max c) + e)) / h)`.
-/
import Mathlib.Analysis.SpecialFunctions.Exp
import Mathlib.Data.Finset.Lattice.Fold

noncomputable section

namespace Cert.RowMath

open Finset

/-- A row has 4096 places: the index set is not empty. -/
theorem ne4096 : (univ : Finset (Fin 4096)).Nonempty := ⟨0, mem_univ _⟩

/-- The largest entry of a row. -/
def rmax (cs : Fin 4096 → ℝ) : ℝ := univ.sup' ne4096 cs

/-- The smallest entry of a row. -/
def rmin (ds : Fin 4096 → ℝ) : ℝ := univ.inf' ne4096 ds

/-- The sum of the row's weights, the smallest distance being `D`. -/
def sumExp (e h D : ℝ) (cs : Fin 4096 → ℝ) : ℝ :=
  ∑ m : Fin 4096, Real.exp ((1 - (1 - cs m) / (D + e)) / h)

/-- The row's value: the weight at the smallest distance over the sum of all weights. -/
def rowVal (e h : ℝ) (cs : Fin 4096 → ℝ) : ℝ :=
  Real.exp ((e / ((1 - rmax cs) + e)) / h) / sumExp e h (1 - rmax cs) cs

end Cert.RowMath

end
-- ==== Proof.Spec.lean ====
/-
  What both programs compute, as a real function of the two input arrays.

  The inputs are arrays `x, y` of shape 4 × 64 × 64 × 128 (batch, row, column, channel). Flatten the 64 × 64
  positions to `n = 64·row + column`. Subtract from both arrays the mean of `y` over the positions (per batch and
  channel), divide every position's channel vector by its length plus the guard `1e-10`, and take all cosines
  `cos[b, n, m] = Σ_c xu[b, n, c] · yu[b, m, c]`. Each row `(b, n)` of cosines has the value `RowMath.rowVal`;
  the result for batch `b` is minus the logarithm of the mean of its 4096 row values.
-/
import proofs.«160792_j27754078667510_1_alg».proof.Proof.Consts
import proofs.«160792_j27754078667510_1_alg».proof.Proof.RowDefs
import Mathlib.Analysis.SpecialFunctions.Log.Basic

noncomputable section

namespace Cert.Spec

open Finset Cert.Consts

/-- An input array as a real function of its four coordinates. -/
abbrev Arr := Fin 4 → Fin 64 → Fin 64 → Fin 128 → ℝ

/-- The grid row of flattened position `n`. -/
def rowOf (n : Fin 4096) : Fin 64 := ⟨n.val / 64, by have := n.isLt; omega⟩

/-- The grid column of flattened position `n`. -/
def colOf (n : Fin 4096) : Fin 64 := ⟨n.val % 64, by have := n.isLt; omega⟩

/-- The array read at a flattened position. -/
def flat (x : Arr) (b : Fin 4) (n : Fin 4096) (c : Fin 128) : ℝ := x b (rowOf n) (colOf n) c

/-- The mean of `y` over the 4096 positions, per batch and channel. -/
def meanY (y : Arr) (b : Fin 4) (c : Fin 128) : ℝ := (∑ n : Fin 4096, flat y b n c) / 4096

/-- `x` centred by the mean of `y`. -/
def cen (x y : Arr) (b : Fin 4) (n : Fin 4096) (c : Fin 128) : ℝ := flat x b n c - meanY y b c

/-- The length of a position's centred channel vector. -/
def nrm (x y : Arr) (b : Fin 4) (n : Fin 4096) : ℝ := Real.sqrt (∑ c : Fin 128, cen x y b n c * cen x y b n c)

/-- The centred vector divided by its length plus the guard. -/
def unit (x y : Arr) (b : Fin 4) (n : Fin 4096) (c : Fin 128) : ℝ := cen x y b n c / (nrm x y b n + epsN)

/-- The cosine of position `n` of `x` against position `m` of `y`. -/
def cosv (x y : Arr) (b : Fin 4) (n m : Fin 4096) : ℝ := ∑ c : Fin 128, unit x y b n c * unit y y b m c

/-- The result for batch `b`. -/
def outR (x y : Arr) (b : Fin 4) : ℝ :=
  -Real.log ((∑ n : Fin 4096, RowMath.rowVal eM hP (cosv x y b n)) / 4096)

end Cert.Spec

end
-- ==== Proof.Coe.lean ====
/-
  A real array read as an array of extended reals: the coercion, element by element. Under the precondition
  (every input finite) both argument arrays are of this form.
-/
import proofs.«160792_j27754078667510_1_alg».proof.Proof.Spec
import Idealize.ShloMosaic.PureOps.Ideal
import Idealize.ShloMosaic.Lib.ValueIdx

noncomputable section

namespace Cert.Coe

open Idealize.ShloMosaic Idealize.ShloMosaic.ValueIdx

/-- The array of extended reals whose entries are the coerced entries of `x`. -/
def coeArr (x : Cert.Spec.Arr) : FVec Ideal ⟨4, ![4, 64, 64, 128]⟩ .f32 := fun i =>
  ((x ⟨(i 0).val, (i 0).isLt⟩ ⟨(i 1).val, (i 1).isLt⟩ ⟨(i 2).val, (i 2).isLt⟩ ⟨(i 3).val, (i 3).isLt⟩ : ℝ) : EReal)

theorem coeArr_ix4 (x : Cert.Spec.Arr) (b : Fin 4) (h w : Fin 64) (c : Fin 128) :
    coeArr x (ix4 b h w c) = ((x b h w c : ℝ) : EReal) := rfl

end Cert.Coe

end
-- ==== Proof.KernelPre.lean ====
/-
  The host operations before the first region, read at an index. From coerced real arguments `x, y` they leave
  in the two arrays the regions read (`main_v21`: the queries, `main_v25`: the keys) the coerced unit vectors of
  the specification: the mean of `y` over the 64 × 64 positions (a sum over two axes, re-indexed by the flattened
  position), the centring, the reshape to 4 × 4096 × 128, the length over the channels, the guard and the quotient.
-/
import proofs.«160792_j27754078667510_1_alg».proof.Proof.Gen.KernelIdeal.Frame
import proofs.«160792_j27754078667510_1_alg».proof.Proof.KernelFns
import proofs.«160792_j27754078667510_1_alg».proof.Proof.Coe
import proofs.«160792_j27754078667510_1_alg».proof.Proof.LibCoe
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws
set_option maxRecDepth 16384

noncomputable section

namespace Cert.KernelIdeal.Pre

open Idealize.ShloMosaic Idealize.ShloMosaic.TcCoe Idealize.ShloMosaic.ValueIdx Idealize.SL.Sem
open Cert.KernelIdeal Cert.KernelIdeal.Gen

/-- The mean of the second array over the 64 × 64 positions, per batch and channel, kept with unit position axes. -/
def preMean (Y : FVec Ideal S4x64x64x128 .f32) : FVec Ideal S4x1x1x128 .f32 :=
  Host.divf
    (broadcastInDim S4x1x1x128 ![0, 3] bcast_S4x128_S4x1x1x128_0_3
      (Host.reduceAdd Y (constant (F := Ideal) S_ .f32 0x00000000#32) reducesTo_S4x64x64x128_S4x128_d1_2 h_S_))
    (broadcastInDim S4x1x1x128 ![] bcast_S_S4x1x1x128 (constant (F := Ideal) S_ .f32 0x45800000#32))

/-- The first array minus that mean, with the positions flattened. -/
def preCen (X Y : FVec Ideal S4x64x64x128 .f32) : FVec Ideal S4x4096x128 .f32 :=
  shapeCast _ (subf X (broadcastInDim S4x64x64x128 ![0, 1, 2, 3] bcast_S4x1x1x128_S4x64x64x128_0_1_2_3 (preMean Y)))
    shapeCasts_S4x64x64x128_S4x4096x128

/-- The length of each position's channel vector plus the guard. -/
def preDen (C : FVec Ideal S4x4096x128 .f32) : FVec Ideal S4x4096x1 .f32 :=
  addf
    (Host.sqrt (broadcastInDim S4x4096x1 ![0, 1] bcast_S4x4096_S4x4096x1_0_1
      (Host.reduceAdd (mulf C C) (constant (F := Ideal) S_ .f32 0x00000000#32) reducesTo_S4x4096x128_S4x4096_d2 h_S_)))
    (broadcastInDim S4x4096x1 ![] bcast_S_S4x4096x1 (constant (F := Ideal) S_ .f32 0x2EDBE6FF#32))

/-- Each channel vector divided by its guarded length. -/
def preUnit (C : FVec Ideal S4x4096x128 .f32) : FVec Ideal S4x4096x128 .f32 :=
  Host.divf C (broadcastInDim S4x4096x128 ![0, 1, 2] bcast_S4x4096x1_S4x4096x128_0_1_2 (preDen C))

/-! ### The operations read at an index -/

/-- The sum over the two position axes, re-indexed by the flattened position `n = 64·row + column`. -/
theorem hostReduceAdd_pos (Y : FVec Ideal S4x64x64x128 .f32) (init : EReal) (b : Fin 4) (k : Fin 128) :
    Ideal.hostReduceAdd reducesTo_S4x64x64x128_S4x128_d1_2 Y init (ix2 b k)
      = init + ∑ n : Fin 4096, Y (ix4 b (Cert.Spec.rowOf n) (Cert.Spec.colOf n) k) := by
  unfold Ideal.hostReduceAdd
  refine congrArg (init + ·) ?_
  symm
  refine Finset.sum_nbij' (fun n => ix4 b (Cert.Spec.rowOf n) (Cert.Spec.colOf n) k)
    (fun i => ⟨64 * (i 1).val + (i 2).val, by
      have h1 : (i 1).val < 64 := (i 1).isLt
      have h2 : (i 2).val < 64 := (i 2).isLt
      omega⟩) ?_ ?_ ?_ ?_ ?_
  · intro n _
    rw [Finset.mem_filter]
    refine ⟨Finset.mem_univ _, funext fun a => Fin.ext ?_⟩
    match a with
    | ⟨0, _⟩ => exact Shape.ReducesTo.drop_apply_val_of_eq reducesTo_S4x64x64x128_S4x128_d1_2 _ (0 : Fin 2) (0 : Fin 4)
    | ⟨1, _⟩ => exact Shape.ReducesTo.drop_apply_val_of_eq reducesTo_S4x64x64x128_S4x128_d1_2 _ (1 : Fin 2) (3 : Fin 4)
  · intro i _; exact Finset.mem_univ _
  · intro n _
    apply Fin.ext
    show 64 * (n.val / 64) + n.val % 64 = n.val
    omega
  · intro i hi
    rw [Finset.mem_filter] at hi
    have e0 : (i 0).val = b.val :=
      (Shape.ReducesTo.drop_apply_val_of_eq reducesTo_S4x64x64x128_S4x128_d1_2 i (0 : Fin 2) (0 : Fin 4)).symm.trans
        (congrArg Fin.val (congrFun hi.2 (0 : Fin 2)))
    have e3 : (i 3).val = k.val :=
      (Shape.ReducesTo.drop_apply_val_of_eq reducesTo_S4x64x64x128_S4x128_d1_2 i (1 : Fin 2) (3 : Fin 4)).symm.trans
        (congrArg Fin.val (congrFun hi.2 (1 : Fin 2)))
    have h1 : (i 1).val < 64 := (i 1).isLt
    have h2 : (i 2).val < 64 := (i 2).isLt
    funext a
    apply Fin.ext
    match a with
    | ⟨0, _⟩ => exact e0.symm
    | ⟨1, _⟩ => show (64 * (i 1).val + (i 2).val) / 64 = (i 1).val; omega
    | ⟨2, _⟩ => show (64 * (i 1).val + (i 2).val) % 64 = (i 2).val; omega
    | ⟨3, _⟩ => exact e3.symm
  · intro n _; rfl

/-- The mean at an index with batch `b` and channel `k`: the initial value plus the sum over the positions, divided by the count. -/
theorem preMean_apply (Y : FVec Ideal S4x64x64x128 .f32) (b : Fin 4) (k : Fin 128) (j : S4x1x1x128.Idx)
    (h0 : (j 0).val = b.val) (h3 : (j 3).val = k.val) :
    preMean Y j = Ideal.div (Ideal.ofBits .f32 0x00000000#32 + ∑ n : Fin 4096, Y (ix4 b (Cert.Spec.rowOf n) (Cert.Spec.colOf n) k))
      (Ideal.ofBits .f32 0x45800000#32) := by
  have e1 : broadcastInDim S4x1x1x128 ![] bcast_S_S4x1x1x128 (constant (F := Ideal) S_ .f32 0x45800000#32) j
      = Ideal.ofBits .f32 0x45800000#32 := by
    rw [broadcastInDim_scalar_apply]; rfl
  have e2 : broadcastInDim S4x1x1x128 ![0, 3] bcast_S4x128_S4x1x1x128_0_3
      (Host.reduceAdd Y (constant (F := Ideal) S_ .f32 0x00000000#32) reducesTo_S4x64x64x128_S4x128_d1_2 h_S_) j
      = Ideal.ofBits .f32 0x00000000#32 + ∑ n : Fin 4096, Y (ix4 b (Cert.Spec.rowOf n) (Cert.Spec.colOf n) k) := by
    rw [broadcastInDim_apply _ bcast_S4x128_S4x1x1x128_0_3 _ j (ix2 b k) (fun a => match a with
      | ⟨0, _⟩ => by show b.val = if (4 : Nat) = 1 then 0 else (j 0).val; rw [if_neg (by decide), h0]
      | ⟨1, _⟩ => by show k.val = if (128 : Nat) = 1 then 0 else (j 3).val; rw [if_neg (by decide), h3])]
    rw [hostReduceAdd_apply, hostReduceAdd_pos]; rfl
  unfold preMean
  rw [hostDivf_apply, e1, e2]

/-- The centred array at flattened position `n`: the first array there minus the mean. -/
theorem preCen_apply (X Y : FVec Ideal S4x64x64x128 .f32) (b : Fin 4) (n : Fin 4096) (k : Fin 128) :
    preCen X Y (ix3 b n k)
      = X (ix4 b (Cert.Spec.rowOf n) (Cert.Spec.colOf n) k) - preMean Y (ix4 b (0 : Fin 1) (0 : Fin 1) k) := by
  unfold preCen
  rw [shapeCast_apply _ shapeCasts_S4x64x64x128_S4x4096x128 (ix3 b n k) (ix4 b (Cert.Spec.rowOf n) (Cert.Spec.colOf n) k) (by
    rewrite [Shape.rowMajor_val_four, Shape.rowMajor_val_three]
    have hn : n.val < 4096 := n.isLt
    show ((b.val * 64 + n.val / 64) * 64 + n.val % 64) * 128 + k.val = (b.val * 4096 + n.val) * 128 + k.val
    omega)]
  rw [subf_apply]
  rw [broadcastInDim_apply _ bcast_S4x1x1x128_S4x64x64x128_0_1_2_3 (preMean Y) (ix4 b (Cert.Spec.rowOf n) (Cert.Spec.colOf n) k)
    (ix4 b (0 : Fin 1) (0 : Fin 1) k) (fun a => match a with
      | ⟨0, _⟩ => by show b.val = if (4 : Nat) = 1 then 0 else b.val; rw [if_neg (by decide)]
      | ⟨1, _⟩ => by show 0 = if (1 : Nat) = 1 then 0 else (Cert.Spec.rowOf n).val; rw [if_pos rfl]
      | ⟨2, _⟩ => by show 0 = if (1 : Nat) = 1 then 0 else (Cert.Spec.colOf n).val; rw [if_pos rfl]
      | ⟨3, _⟩ => by show k.val = if (128 : Nat) = 1 then 0 else k.val; rw [if_neg (by decide)])]

/-- The guarded length at an index with batch `b` and position `n`: the root of the sum of squares over the channels, plus the guard. -/
theorem preDen_apply (C : FVec Ideal S4x4096x128 .f32) (b : Fin 4) (n : Fin 4096) (j : S4x4096x1.Idx)
    (h0 : (j 0).val = b.val) (h1 : (j 1).val = n.val) :
    preDen C j = Ideal.sqrt (Ideal.ofBits .f32 0x00000000#32 + ∑ k : Fin 128, C (ix3 b n k) * C (ix3 b n k))
      + Ideal.ofBits .f32 0x2EDBE6FF#32 := by
  have e1 : broadcastInDim S4x4096x1 ![] bcast_S_S4x4096x1 (constant (F := Ideal) S_ .f32 0x2EDBE6FF#32) j
      = Ideal.ofBits .f32 0x2EDBE6FF#32 := by
    rw [broadcastInDim_scalar_apply]; rfl
  have e2 : broadcastInDim S4x4096x1 ![0, 1] bcast_S4x4096_S4x4096x1_0_1
      (Host.reduceAdd (mulf C C) (constant (F := Ideal) S_ .f32 0x00000000#32) reducesTo_S4x4096x128_S4x4096_d2 h_S_) j
      = Ideal.ofBits .f32 0x00000000#32 + ∑ k : Fin 128, C (ix3 b n k) * C (ix3 b n k) := by
    rw [broadcastInDim_apply _ bcast_S4x4096_S4x4096x1_0_1 _ j (ix2 b n) (fun a => match a with
      | ⟨0, _⟩ => by show b.val = if (4 : Nat) = 1 then 0 else (j 0).val; rw [if_neg (by decide), h0]
      | ⟨1, _⟩ => by show n.val = if (4096 : Nat) = 1 then 0 else (j 1).val; rw [if_neg (by decide), h1])]
    rw [hostReduceAdd_apply, Ideal.hostReduceAdd_single reducesTo_S4x4096x128_S4x4096_d2 (by decide)]
    refine congrArg₂ (· + ·) rfl (Finset.sum_congr rfl fun k _ => ?_)
    rw [mulf_apply]
    have ek : (Shape.Reduces.lift (by decide : S4x4096x128.Reduces [2] S4x4096) (ix2 b n) k) = ix3 b n k :=
      funext fun a => Fin.ext (by match a with | ⟨0, _⟩ => rfl | ⟨1, _⟩ => rfl | ⟨2, _⟩ => rfl)
    rw [ek]; rfl
  unfold preDen
  rw [addf_apply, e1]
  show Ideal.sqrt (broadcastInDim S4x4096x1 ![0, 1] bcast_S4x4096_S4x4096x1_0_1
      (Host.reduceAdd (mulf C C) (constant (F := Ideal) S_ .f32 0x00000000#32) reducesTo_S4x4096x128_S4x4096_d2 h_S_) j) + _ = _
  rw [e2]

/-- The quotient at an index: the element over the guarded length of its position. -/
theorem preUnit_apply (C : FVec Ideal S4x4096x128 .f32) (b : Fin 4) (n : Fin 4096) (k : Fin 128) :
    preUnit C (ix3 b n k) = Ideal.div (C (ix3 b n k)) (preDen C (ix3 b n (0 : Fin 1))) := by
  unfold preUnit
  rw [hostDivf_apply]
  rw [broadcastInDim_apply _ bcast_S4x4096x1_S4x4096x128_0_1_2 (preDen C) (ix3 b n k) (ix3 b n (0 : Fin 1)) (fun a => match a with
      | ⟨0, _⟩ => by show b.val = if (4 : Nat) = 1 then 0 else b.val; rw [if_neg (by decide)]
      | ⟨1, _⟩ => by show n.val = if (4096 : Nat) = 1 then 0 else n.val; rw [if_neg (by decide)]
      | ⟨2, _⟩ => by show 0 = if (1 : Nat) = 1 then 0 else k.val; rw [if_pos rfl])]

/-! ### On coerced real arrays -/

/-- On a coerced real array the mean is the coerced real mean. -/
theorem preMean_coe (y : Cert.Spec.Arr) (b : Fin 4) (k : Fin 128) (j : S4x1x1x128.Idx)
    (h0 : (j 0).val = b.val) (h3 : (j 3).val = k.val) :
    preMean (Cert.Coe.coeArr y) j = ((Cert.Spec.meanY y b k : ℝ) : EReal) := by
  rw [preMean_apply _ b k j h0 h3]
  simp only [Cert.Coe.coeArr_ix4]
  rw [Cert.LibCoe.ofBits_zero, Cert.Consts.ofBits_4096, Cert.LibCoe.sum_coe, Cert.LibCoe.add_coe, zero_add,
    Cert.LibCoe.div_coe_coe _ (by norm_num : (4096 : ℝ) ≠ 0)]
  unfold Cert.Spec.meanY Cert.Spec.flat
  rfl

/-- On coerced real arrays the centred array is the coerced real centring. -/
theorem preCen_coe (x y : Cert.Spec.Arr) (b : Fin 4) (n : Fin 4096) (k : Fin 128) :
    preCen (Cert.Coe.coeArr x) (Cert.Coe.coeArr y) (ix3 b n k) = ((Cert.Spec.cen x y b n k : ℝ) : EReal) := by
  rw [preCen_apply, Cert.Coe.coeArr_ix4, preMean_coe y b k (ix4 b (0 : Fin 1) (0 : Fin 1) k) rfl rfl, Cert.LibCoe.sub_coe]
  unfold Cert.Spec.cen Cert.Spec.flat
  rfl

/-- Where a position's channel vector is a coerced real vector `f`, the quotient is the coerced `f k / (‖f‖ + guard)`:
    the sum of squares is non-negative, so its root is the real root, and the guarded length is positive. -/
theorem preUnit_coe (C : FVec Ideal S4x4096x128 .f32) (b : Fin 4) (n : Fin 4096) (f : Fin 128 → ℝ)
    (hC : ∀ k, C (ix3 b n k) = ((f k : ℝ) : EReal)) (k : Fin 128) :
    preUnit C (ix3 b n k)
      = ((f k / (Real.sqrt (∑ c : Fin 128, f c * f c) + Cert.Consts.epsN) : ℝ) : EReal) := by
  rw [preUnit_apply, preDen_apply C b n (ix3 b n (0 : Fin 1)) rfl rfl]
  simp only [hC]
  rw [Cert.LibCoe.ofBits_zero, Cert.Consts.ofBits_epsN]
  simp only [Cert.LibCoe.mul_coe]
  rw [Cert.LibCoe.sum_coe, Cert.LibCoe.add_coe, zero_add, Ideal.sqrt_coe,
    if_neg (not_lt.mpr (Finset.sum_nonneg fun c _ => mul_self_nonneg (f c))), Cert.LibCoe.add_coe,
    Cert.LibCoe.div_coe_coe _ (ne_of_gt (add_pos_of_nonneg_of_pos (Real.sqrt_nonneg _) Cert.Consts.epsN_pos))]

/-! ### The two arrays the regions read -/

variable (m : (ℓ : Loc nD τ sig) → Buf (Elt Ideal) ℓ) (ρ : Dev nD → PrngReg)

/-- The query array is the operations' composed term of the two arguments. -/
theorem V1_v21_eq (c : Dev nD) :
    (V1 m ρ c main_v21 : FVec Ideal S4x4096x128 .f32)
      = preUnit (preCen (m ((c.tc : Thread nD τ).loc main_arg0)) (m ((c.tc : Thread nD τ).loc main_arg1))) := by
  dsimp only [V1, W1, W0, hostOps0]; after_results; rfl

set_option maxHeartbeats 1600000 in
/-- The key array is the same term with the second argument in both places. -/
theorem V1_v25_eq (c : Dev nD) :
    (V1 m ρ c main_v25 : FVec Ideal S4x4096x128 .f32)
      = preUnit (preCen (m ((c.tc : Thread nD τ).loc main_arg1)) (m ((c.tc : Thread nD τ).loc main_arg1))) := by
  dsimp only [V1, W1, W0, hostOps0]; after_results_simp <;> rfl

/-- The query array the regions read holds the coerced unit vectors of `x` centred by the mean of `y`. -/
theorem V1_v21_apply (c : Dev nD) (x y : Cert.Spec.Arr)
    (hx : m ((c.tc : Thread nD τ).loc main_arg0) = Cert.Coe.coeArr x)
    (hy : m ((c.tc : Thread nD τ).loc main_arg1) = Cert.Coe.coeArr y)
    (b : Fin 4) (n : Fin 4096) (k : Fin 128) :
    (V1 m ρ c main_v21 : FVec Ideal S4x4096x128 .f32) (ix3 b n k) = ((Cert.Spec.unit x y b n k : ℝ) : EReal) := by
  have e := congrFun (V1_v21_eq m ρ c) (ix3 b n k)
  rw [hx, hy] at e
  refine e.trans ?_
  rw [preUnit_coe _ b n (Cert.Spec.cen x y b n) (fun k => preCen_coe x y b n k) k]
  unfold Cert.Spec.unit Cert.Spec.nrm
  rfl

/-- The key array the regions read holds the coerced unit vectors of `y` centred by its own mean. -/
theorem V1_v25_apply (c : Dev nD) (y : Cert.Spec.Arr)
    (hy : m ((c.tc : Thread nD τ).loc main_arg1) = Cert.Coe.coeArr y)
    (b : Fin 4) (n : Fin 4096) (k : Fin 128) :
    (V1 m ρ c main_v25 : FVec Ideal S4x4096x128 .f32) (ix3 b n k) = ((Cert.Spec.unit y y b n k : ℝ) : EReal) := by
  have e := congrFun (V1_v25_eq m ρ c) (ix3 b n k)
  rw [hy] at e
  refine e.trans ?_
  rw [preUnit_coe _ b n (Cert.Spec.cen y y b n) (fun k => preCen_coe y y b n k) k]
  unfold Cert.Spec.unit Cert.Spec.nrm
  rfl

end Cert.KernelIdeal.Pre

end
-- ==== Proof.KernelReg0.lean ====
/-
  Region 0's result array. Grid point `(b, q)` reads the query block of rows `1024 q … 1024 q + 1023` of batch `b`
  and ALL 4096 key rows of batch `b`, and writes back, for each of its 1024 rows, the largest inner product of
  the row with a key row. The 16 blocks tile the 4 × 4096 × 1 result, so the array ends at one whole-array
  function of the two arrays the region reads.
-/
import proofs.«160792_j27754078667510_1_alg».proof.Proof.Gen.KernelIdeal.Frame
import proofs.«160792_j27754078667510_1_alg».proof.Proof.KernelFns
import Idealize.ShloMosaic.Lib.Pipeline.Value
import Idealize.ShloMosaic.Lib.ValueLayout
import Idealize.ShloMosaic.Lib.ValueIdx
import Idealize.ShloMosaic.PureOps.Ideal.Laws
set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at an index -/

/-- The left operand's index of the contraction: its batch axis reads the result's batch coordinate. -/
private theorem lhs_ax0 (i : S1x1024x4096.Idx) (q : dot_S1x1024x128_S1x4096x128_S1x1024x4096_2_2_1_1_0_0.contr.Idx) :
    (dot_S1x1024x128_S1x4096x128_S1x1024x4096_2_2_1_1_0_0.lhsIdx i q 0).val = (i 0).val := by
  unfold DotDims.lhsIdx
  rw [dif_pos (show (0 : Fin S1x1024x128.rank) ∈ dot_S1x1024x128_S1x4096x128_S1x1024x4096_2_2_1_1_0_0.lhsBatch by decide)]
  rfl
/-- Its row axis reads the result's row coordinate. -/
private theorem lhs_ax1 (i : S1x1024x4096.Idx) (q : dot_S1x1024x128_S1x4096x128_S1x1024x4096_2_2_1_1_0_0.contr.Idx) :
    (dot_S1x1024x128_S1x4096x128_S1x1024x4096_2_2_1_1_0_0.lhsIdx i q 1).val = (i 1).val := by
  unfold DotDims.lhsIdx
  rw [dif_neg (show ¬(1 : Fin S1x1024x128.rank) ∈ dot_S1x1024x128_S1x4096x128_S1x1024x4096_2_2_1_1_0_0.lhsBatch by decide), dif_pos (show (1 : Fin S1x1024x128.rank) ∈ dot_S1x1024x128_S1x4096x128_S1x1024x4096_2_2_1_1_0_0.lhsNonContracting by decide)]
  rfl
/-- Its channel axis reads the contraction coordinate. -/
private theorem lhs_ax2 (i : S1x1024x4096.Idx) (q : dot_S1x1024x128_S1x4096x128_S1x1024x4096_2_2_1_1_0_0.contr.Idx) :
    (dot_S1x1024x128_S1x4096x128_S1x1024x4096_2_2_1_1_0_0.lhsIdx i q 2).val = (q ⟨0, by decide⟩).val :=
  dot_S1x1024x128_S1x4096x128_S1x1024x4096_2_2_1_1_0_0.lhsIdx_val_of_single rfl i q
/-- The right operand's index: its batch axis reads the result's batch coordinate. -/
private theorem rhs_ax0 (i : S1x1024x4096.Idx) (q : dot_S1x1024x128_S1x4096x128_S1x1024x4096_2_2_1_1_0_0.contr.Idx) :
    (dot_S1x1024x128_S1x4096x128_S1x1024x4096_2_2_1_1_0_0.rhsIdx i q 0).val = (i 0).val := by
  unfold DotDims.rhsIdx
  rw [dif_pos (show (0 : Fin S1x4096x128.rank) ∈ dot_S1x1024x128_S1x4096x128_S1x1024x4096_2_2_1_1_0_0.rhsBatch by decide)]
  rfl
/-- Its row axis reads the result's column coordinate. -/
private theorem rhs_ax1 (i : S1x1024x4096.Idx) (q : dot_S1x1024x128_S1x4096x128_S1x1024x4096_2_2_1_1_0_0.contr.Idx) :
    (dot_S1x1024x128_S1x4096x128_S1x1024x4096_2_2_1_1_0_0.rhsIdx i q 1).val = (i 2).val := by
  unfold DotDims.rhsIdx
  rw [dif_neg (show ¬(1 : Fin S1x4096x128.rank) ∈ dot_S1x1024x128_S1x4096x128_S1x1024x4096_2_2_1_1_0_0.rhsBatch by decide), dif_pos (show (1 : Fin S1x4096x128.rank) ∈ dot_S1x1024x128_S1x4096x128_S1x1024x4096_2_2_1_1_0_0.rhsNonContracting by decide)]
  rfl
/-- Its channel axis reads the contraction coordinate. -/
private theorem rhs_ax2 (i : S1x1024x4096.Idx) (q : dot_S1x1024x128_S1x4096x128_S1x1024x4096_2_2_1_1_0_0.contr.Idx) :
    (dot_S1x1024x128_S1x4096x128_S1x1024x4096_2_2_1_1_0_0.rhsIdx i q 2).val = (q ⟨0, by decide⟩).val :=
  dot_S1x1024x128_S1x4096x128_S1x1024x4096_2_2_1_1_0_0.rhsIdx_val_of_single rfl i q

/-- The product of the two blocks into the zero block, at (0, r, m): the inner product of row r with key row m. -/
private theorem dot_apply (y0 : FVec Ideal S1x1024x128 .f32) (y1 : FVec Ideal S1x4096x128 .f32) (r : Fin 1024) (m : Fin 4096) :
    matmul dot_S1x1024x128_S1x4096x128_S1x1024x4096_2_2_1_1_0_0 (some .fp32) y0 y1 (constant S1x1024x4096 .f32 0x00000000#32) (ix3 0 r m)
      = ∑ k : Fin 128, y0 (ix3 0 r k) * y1 (ix3 0 m k) := by
  simp only [matmul]
  rw [Ideal.matmul_constant_zero_apply, ← Equiv.sum_comp (ValueIdx.contrEquiv1 dot_S1x1024x128_S1x4096x128_S1x1024x4096_2_2_1_1_0_0 128 rfl rfl).symm]
  refine Finset.sum_congr rfl fun k _ => ?_
  have hk := ValueIdx.contrEquiv1_symm_val dot_S1x1024x128_S1x4096x128_S1x1024x4096_2_2_1_1_0_0 128 rfl rfl k
  have el : dot_S1x1024x128_S1x4096x128_S1x1024x4096_2_2_1_1_0_0.lhsIdx (ix3 0 r m) ((ValueIdx.contrEquiv1 dot_S1x1024x128_S1x4096x128_S1x1024x4096_2_2_1_1_0_0 128 rfl rfl).symm k) = ix3 0 r k := funext fun a => Fin.ext (by
    match a with
    | ⟨0, _⟩ => exact lhs_ax0 _ _
    | ⟨1, _⟩ => exact lhs_ax1 _ _
    | ⟨2, _⟩ => exact (lhs_ax2 _ _).trans hk)
  have er : dot_S1x1024x128_S1x4096x128_S1x1024x4096_2_2_1_1_0_0.rhsIdx (ix3 0 r m) ((ValueIdx.contrEquiv1 dot_S1x1024x128_S1x4096x128_S1x1024x4096_2_2_1_1_0_0 128 rfl rfl).symm k) = ix3 0 m k := funext fun a => Fin.ext (by
    match a with
    | ⟨0, _⟩ => exact rhs_ax0 _ _
    | ⟨1, _⟩ => exact rhs_ax1 _ _
    | ⟨2, _⟩ => exact (rhs_ax2 _ _).trans hk)
  rw [el, er]

/-- The body's stored block at row r: the largest, over the 4096 key rows, of the row's inner products. -/
private theorem pay_apply (x0 : Vec Ideal S1x1024x128 .f32) (x1 : Vec Ideal S1x4096x128 .f32) (r : Fin 1024) :
    k0_pay1 (F := Ideal) x0 x1 (ix3 0 r 0)
      = (Finset.univ : Finset (Fin 4096)).fold max (Ideal.ofBits .f32 0xFF800000#32)
          (fun m => ∑ k : Fin 128, (x0 (ix3 0 r k) : EReal) * (x1 (ix3 0 m k) : EReal)) := by
  unfold k0_pay1
  rw [shapeCast_self, shapeCast_self]
  rw [shapeCast_apply _ shapeCasts_S1x1024_S1x1024x1 (ix3 0 r 0) (ix2 0 r) (by
    rw [Shape.rowMajor_val_two, Shape.rowMajor_val_three]
    show (0 : Nat) * 1024 + r.val = ((0 : Nat) * 1024 + r.val) * 1 + 0
    omega)]
  refine (Ideal.multiReduction_maximumf_single (φ := .f32) _ (0xFF800000#32) reduces_S1x1024x4096_S1x1024 (.inl rfl) rfl (ix2 0 r)).trans ?_
  refine congrArg (fun f => (Finset.univ : Finset (Fin 4096)).fold max (Ideal.ofBits .f32 0xFF800000#32) f) (funext fun m => ?_)
  have hl : reduces_S1x1024x4096_S1x1024.lift (ix2 0 r) m = ix3 0 r m := funext fun a => Fin.ext (by
    match a with
    | ⟨0, _⟩ => rfl
    | ⟨1, _⟩ => rfl
    | ⟨2, _⟩ => rfl)
  show matmul (F := Ideal) dot_S1x1024x128_S1x4096x128_S1x1024x4096_2_2_1_1_0_0 (some .fp32) (x0 : FVec Ideal S1x1024x128 .f32) (x1 : FVec Ideal S1x4096x128 .f32) (constant S1x1024x4096 .f32 0x00000000#32) (reduces_S1x1024x4096_S1x1024.lift (ix2 0 r) m) = _
  rw [hl]
  exact dot_apply x0 x1 r m

/-- The stored block at any of its indices: both unit axes are at 0, the row is the index's middle coordinate. -/
private theorem pay_at (x0 : Vec Ideal S1x1024x128 .f32) (x1 : Vec Ideal S1x4096x128 .f32) (j : S1x1024x1.Idx) :
    k0_pay1 (F := Ideal) x0 x1 j
      = (Finset.univ : Finset (Fin 4096)).fold max (Ideal.ofBits .f32 0xFF800000#32)
          (fun m => ∑ k : Fin 128, (x0 (ix3 0 ⟨(j 1).val, (j 1).isLt⟩ k) : EReal) * (x1 (ix3 0 m k) : EReal)) := by
  have hj : j = ix3 (0 : Fin 1) (⟨(j 1).val, (j 1).isLt⟩ : Fin 1024) (0 : Fin 1) := funext fun a => Fin.ext (by
    match a with
    | ⟨0, _⟩ => show (j 0).val = 0; have h : (j 0).val < 1 := (j 0).isLt; omega
    | ⟨1, _⟩ => rfl
    | ⟨2, _⟩ => show (j 2).val = 0; have h : (j 2).val < 1 := (j 2).isLt; omega)
  exact (congrArg (k0_pay1 (F := Ideal) x0 x1) hj).trans (pay_apply x0 x1 ⟨(j 1).val, (j 1).isLt⟩)

/-! ## The blocks a point reads and writes -/

private theorem hz : (![0, 0, 0] : Fin 3 → Nat) = fun _ => 0 := funext fun a => by fin_cases a <;> rfl

/-- The printed index maps, decided over the 16 points: the query block moves with the result block, the key block
    with the result block's batch alone, and the result's block indices stay in their ranges. -/
private theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 3 ∧ win0_2.index t (1 : Fin 3) ≤ 3 ∧ win0_2.index t (2 : Fin 3) = 0 :=
  (by decide +kernel : ∀ t : Fin grid0.N, _)

/-- Every block of the result is some point's. -/
private theorem idx_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- The query block at point t is rows 1024 q … 1024 q + 1023 of batch b of the query array, (b, q) the result block's indices. -/
private theorem qblk_apply (c : Dev nD) (t : Fin cfg0.N) (y : S1x1024x128.Idx) (i : S4x4096x128.Idx)
    (h0 : (i 0).val = win0_2.index t (0 : Fin 3)) (h1 : (i 1).val = win0_2.index t (1 : Fin 3) * 1024 + (y 1).val)
    (h2 : (i 2).val = (y 2).val) :
    (iblk0 (F := Ideal) V c 0 t : Vec Ideal S1x1024x128 .f32) y = (V c main_v21 : S4x4096x128.Idx → EReal) i := by
  obtain ⟨e0, e1, e2, -, -, -, -, -, -⟩ := idx_facts t
  unfold iblk0
  rw [View.read_apply]
  show (V c main_v21 : S4x4096x128.Idx → EReal) (((cfg0.win 0).blk t).view.emb y) = (V c main_v21 : S4x4096x128.Idx → EReal) i
  refine congrArg _ (funext fun a => Fin.ext ?_)
  match a with
  | ⟨0, _⟩ => show win0_0.index t (0 : Fin 3) * 1 + 1 * (y 0).val = (i 0).val; have hy : (y 0).val < 1 := (y 0).isLt; omega
  | ⟨1, _⟩ => show win0_0.index t (1 : Fin 3) * 1024 + 1 * (y 1).val = (i 1).val; omega
  | ⟨2, _⟩ => show win0_0.index t (2 : Fin 3) * 128 + 1 * (y 2).val = (i 2).val; omega

/-- The key block at point t is all 4096 rows of batch b of the key array. -/
private theorem kblk_apply (c : Dev nD) (t : Fin cfg0.N) (y : S1x4096x128.Idx) (i : S4x4096x128.Idx)
    (h0 : (i 0).val = win0_2.index t (0 : Fin 3)) (h1 : (i 1).val = (y 1).val) (h2 : (i 2).val = (y 2).val) :
    (iblk0 (F := Ideal) V c 1 t : Vec Ideal S1x4096x128 .f32) y = (V c main_v25 : S4x4096x128.Idx → EReal) i := by
  obtain ⟨-, -, -, e0, e1, e2, -, -, -⟩ := idx_facts t
  unfold iblk0
  rw [View.read_apply]
  show (V c main_v25 : S4x4096x128.Idx → EReal) (((cfg0.win 1).blk t).view.emb y) = (V c main_v25 : S4x4096x128.Idx → EReal) i
  refine congrArg _ (funext fun a => Fin.ext ?_)
  match a with
  | ⟨0, _⟩ => show win0_1.index t (0 : Fin 3) * 1 + 1 * (y 0).val = (i 0).val; have hy : (y 0).val < 1 := (y 0).isLt; omega
  | ⟨1, _⟩ => show win0_1.index t (1 : Fin 3) * 4096 + 1 * (y 1).val = (i 1).val; omega
  | ⟨2, _⟩ => show win0_1.index t (2 : Fin 3) * 128 + 1 * (y 2).val = (i 2).val; omega

/-- The stored block at index j is the whole-array function at any index i of the result whose batch is the result block's
    and whose row is 1024 q + the row of j. -/
private theorem blk_row (c : Dev nD) (t : Fin cfg0.N) (j : S1x1024x1.Idx) (i : S4x4096x1.Idx)
    (h0 : (i 0).val = win0_2.index t (0 : Fin 3)) (h1 : (i 1).val = win0_2.index t (1 : Fin 3) * 1024 + (j 1).val) :
    k0_pay1 (F := Ideal) (iblk0 (F := Ideal) V c 0 t) (iblk0 (F := Ideal) V c 1 t) j
      = Cert.KernelIdeal.Fns.G0 (V c main_v21) (V c main_v25) i := by
  refine (pay_at (iblk0 (F := Ideal) V c 0 t) (iblk0 (F := Ideal) V c 1 t) j).trans ?_
  show _ = (Finset.univ : Finset (Fin 4096)).fold max (Ideal.ofBits .f32 0xFF800000#32)
    (fun m => Cert.KernelIdeal.Fns.dotAt (V c main_v21) (V c main_v25) ⟨(i 0).val, (i 0).isLt⟩ ⟨(i 1).val, (i 1).isLt⟩ m)
  refine congrArg (fun f => (Finset.univ : Finset (Fin 4096)).fold max (Ideal.ofBits .f32 0xFF800000#32) f) (funext fun m => ?_)
  unfold Cert.KernelIdeal.Fns.dotAt
  refine Finset.sum_congr rfl fun k _ => ?_
  exact congrArg₂ (fun a b : EReal => a * b)
    (qblk_apply V c t (ix3 0 ⟨(j 1).val, (j 1).isLt⟩ k) (ix3 ⟨(i 0).val, (i 0).isLt⟩ ⟨(i 1).val, (i 1).isLt⟩ k) h0 h1 rfl)
    (kblk_apply V c t (ix3 0 m k) (ix3 ⟨(i 0).val, (i 0).isLt⟩ m k) h0 rfl rfl)

/-- What point t writes back is block t of the whole-array function of the two arrays the region reads. -/
private theorem flushed_eq (c : Dev nD) (t : Fin cfg0.N) :
    (dat0 (F := Ideal) V c).flushed 2 t
      = ((cfg0.win 2).blk t).view.read (Elt Ideal) (Cert.KernelIdeal.Fns.G0 (V c main_v21) (V c main_v25)) := by
  show (cfg0.win 2).cut (grid0.coords t) ((dat0 (F := Ideal) V c).after 2 t) = _
  rw [after0_2]
  unfold out0_2
  rw [View.canon_unit_zero hz]
  simp only [View.ld_unit_zero (S := S1x1024x128) hz, View.ld_unit_zero (S := S1x4096x128) hz]
  funext j
  show k0_pay1 (F := Ideal) (iblk0 (F := Ideal) V c 0 t) (iblk0 (F := Ideal) V c 1 t) j
    = Cert.KernelIdeal.Fns.G0 (V c main_v21) (V c main_v25) (((cfg0.win 2).blk t).view.emb j)
  have hj0 : (j 0).val < 1 := (j 0).isLt
  refine blk_row V c t j (((cfg0.win 2).blk t).view.emb j) ?_ ?_
  · show win0_2.index t (0 : Fin 3) * 1 + 1 * (j 0).val = win0_2.index t (0 : Fin 3); omega
  · show win0_2.index t (1 : Fin 3) * 1024 + 1 * (j 1).val = win0_2.index t (1 : Fin 3) * 1024 + (j 1).val; omega

/-! ## The 16 blocks tile the result -/

/-- An index of the result is in point t's block iff each coordinate is in the block's range on its axis. -/
private theorem mem_blk (t : Fin cfg0.N) (i : S4x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v26).slice (win0_2.rect t)).set ↔ _
  rw [View.set_slice_whole, Rect.mem_set_unit]
  exact Iff.rfl

/-- Row r of batch b is in the block of the point whose result block is (b, r / 1024). -/
private theorem cover (i : S4x4096x1.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

theorem arr0 (c : Dev nD) :
    ((dat0 (F := Ideal) V c).arrAt 2 cfg0.N : FVec Ideal S4x4096x1 .f32)
      = Cert.KernelIdeal.Fns.G0 (V c main_v21) (V c main_v25) :=
  (dat0 (F := Ideal) V c).arrAt_eq_of_cover 2 (Cert.KernelIdeal.Fns.G0 (V c main_v21) (V c main_v25))
    (fun t _ => flushed_eq V c t) cover

end Cert.KernelIdeal.Reg0

end
-- ==== Proof.KernelReg1.lean ====
/-
  Region 1's result array. Grid point `(b, q)` reads the same query block and key rows as region 0's, and the
  block of region 0's result for its 1024 rows; for each row it writes back the sum over the key rows of
  `exp ((1 - (1 - cos) / ((1 - max) + e)) / h)`. The 16 blocks tile the 4 × 4096 × 1 result.
-/
import proofs.«160792_j27754078667510_1_alg».proof.Proof.Gen.KernelIdeal.Frame
import proofs.«160792_j27754078667510_1_alg».proof.Proof.KernelFns
import Idealize.ShloMosaic.Lib.Pipeline.Value
import Idealize.ShloMosaic.Lib.ValueLayout
import Idealize.ShloMosaic.PureOps.Ideal.Laws
set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The inner product inside the body: the operand indices of the contraction, axis by axis -/

private theorem lhs_ax0 (i : S1x1024x4096.Idx) (q : dot_S1x1024x128_S1x4096x128_S1x1024x4096_2_2_1_1_0_0.contr.Idx) :
    (dot_S1x1024x128_S1x4096x128_S1x1024x4096_2_2_1_1_0_0.lhsIdx i q 0).val = (i 0).val := by
  unfold DotDims.lhsIdx
  rw [dif_pos (show (0 : Fin S1x1024x128.rank) ∈ dot_S1x1024x128_S1x4096x128_S1x1024x4096_2_2_1_1_0_0.lhsBatch by decide)]
  rfl
private theorem lhs_ax1 (i : S1x1024x4096.Idx) (q : dot_S1x1024x128_S1x4096x128_S1x1024x4096_2_2_1_1_0_0.contr.Idx) :
    (dot_S1x1024x128_S1x4096x128_S1x1024x4096_2_2_1_1_0_0.lhsIdx i q 1).val = (i 1).val := by
  unfold DotDims.lhsIdx
  rw [dif_neg (show ¬(1 : Fin S1x1024x128.rank) ∈ dot_S1x1024x128_S1x4096x128_S1x1024x4096_2_2_1_1_0_0.lhsBatch by decide), dif_pos (show (1 : Fin S1x1024x128.rank) ∈ dot_S1x1024x128_S1x4096x128_S1x1024x4096_2_2_1_1_0_0.lhsNonContracting by decide)]
  rfl
private theorem lhs_ax2 (i : S1x1024x4096.Idx) (q : dot_S1x1024x128_S1x4096x128_S1x1024x4096_2_2_1_1_0_0.contr.Idx) :
    (dot_S1x1024x128_S1x4096x128_S1x1024x4096_2_2_1_1_0_0.lhsIdx i q 2).val = (q ⟨0, by decide⟩).val :=
  dot_S1x1024x128_S1x4096x128_S1x1024x4096_2_2_1_1_0_0.lhsIdx_val_of_single rfl i q
private theorem rhs_ax0 (i : S1x1024x4096.Idx) (q : dot_S1x1024x128_S1x4096x128_S1x1024x4096_2_2_1_1_0_0.contr.Idx) :
    (dot_S1x1024x128_S1x4096x128_S1x1024x4096_2_2_1_1_0_0.rhsIdx i q 0).val = (i 0).val := by
  unfold DotDims.rhsIdx
  rw [dif_pos (show (0 : Fin S1x4096x128.rank) ∈ dot_S1x1024x128_S1x4096x128_S1x1024x4096_2_2_1_1_0_0.rhsBatch by decide)]
  rfl
private theorem rhs_ax1 (i : S1x1024x4096.Idx) (q : dot_S1x1024x128_S1x4096x128_S1x1024x4096_2_2_1_1_0_0.contr.Idx) :
    (dot_S1x1024x128_S1x4096x128_S1x1024x4096_2_2_1_1_0_0.rhsIdx i q 1).val = (i 2).val := by
  unfold DotDims.rhsIdx
  rw [dif_neg (show ¬(1 : Fin S1x4096x128.rank) ∈ dot_S1x1024x128_S1x4096x128_S1x1024x4096_2_2_1_1_0_0.rhsBatch by decide), dif_pos (show (1 : Fin S1x4096x128.rank) ∈ dot_S1x1024x128_S1x4096x128_S1x1024x4096_2_2_1_1_0_0.rhsNonContracting by decide)]
  rfl
private theorem rhs_ax2 (i : S1x1024x4096.Idx) (q : dot_S1x1024x128_S1x4096x128_S1x1024x4096_2_2_1_1_0_0.contr.Idx) :
    (dot_S1x1024x128_S1x4096x128_S1x1024x4096_2_2_1_1_0_0.rhsIdx i q 2).val = (q ⟨0, by decide⟩).val :=
  dot_S1x1024x128_S1x4096x128_S1x1024x4096_2_2_1_1_0_0.rhsIdx_val_of_single rfl i q

/-- The product of a block of 1024 query rows with the 4096 key rows, into the zero splat, at row `r` and key `m`:
    the inner product of the two rows over the 128 channels. -/
private theorem matmul_at (y0 : FVec Ideal S1x1024x128 .f32) (y1 : FVec Ideal S1x4096x128 .f32) (r : Fin 1024) (m : Fin 4096) :
    matmul dot_S1x1024x128_S1x4096x128_S1x1024x4096_2_2_1_1_0_0 (some .fp32) y0 y1 (constant (F := Ideal) S1x1024x4096 .f32 0x00000000#32) (ix3 (0 : Fin 1) r m)
      = ∑ k : Fin 128, y0 (ix3 (0 : Fin 1) r k) * y1 (ix3 (0 : Fin 1) m k) := by
  simp only [matmul]
  rw [Ideal.matmul_constant_zero_apply, ← Equiv.sum_comp (ValueIdx.contrEquiv1 dot_S1x1024x128_S1x4096x128_S1x1024x4096_2_2_1_1_0_0 128 rfl rfl).symm]
  refine Finset.sum_congr rfl fun k _ => ?_
  have hk := ValueIdx.contrEquiv1_symm_val dot_S1x1024x128_S1x4096x128_S1x1024x4096_2_2_1_1_0_0 128 rfl rfl k
  have el : dot_S1x1024x128_S1x4096x128_S1x1024x4096_2_2_1_1_0_0.lhsIdx (ix3 (0 : Fin 1) r m) ((ValueIdx.contrEquiv1 dot_S1x1024x128_S1x4096x128_S1x1024x4096_2_2_1_1_0_0 128 rfl rfl).symm k) = ix3 (0 : Fin 1) r k := funext fun a => Fin.ext (by
    match a with
    | ⟨0, _⟩ => exact lhs_ax0 _ _
    | ⟨1, _⟩ => exact lhs_ax1 _ _
    | ⟨2, _⟩ => exact (lhs_ax2 _ _).trans hk)
  have er : dot_S1x1024x128_S1x4096x128_S1x1024x4096_2_2_1_1_0_0.rhsIdx (ix3 (0 : Fin 1) r m) ((ValueIdx.contrEquiv1 dot_S1x1024x128_S1x4096x128_S1x1024x4096_2_2_1_1_0_0 128 rfl rfl).symm k) = ix3 (0 : Fin 1) m k := funext fun a => Fin.ext (by
    match a with
    | ⟨0, _⟩ => exact rhs_ax0 _ _
    | ⟨1, _⟩ => exact rhs_ax1 _ _
    | ⟨2, _⟩ => exact (rhs_ax2 _ _).trans hk)
  rw [el, er]

/-- The row's denominator spread over the 4096 keys reads, at every key, the row's one entry. -/
private theorem spread_at (y : FVec Ideal S1x1024x1 .f32) (r : Fin 1024) (m : Fin 4096) :
    broadcastTo S1x1024x4096 y broadcasts_S1x1024x1_S1x1024x4096 (ix3 (0 : Fin 1) r m) = y (ix3 (0 : Fin 1) r (0 : Fin 1)) :=
  broadcastTo_apply y broadcasts_S1x1024x1_S1x1024x4096 (ix3 (0 : Fin 1) r m) (ix3 (0 : Fin 1) r (0 : Fin 1)) fun a =>
    match a with
    | ⟨0, _⟩ => by show 0 = if (1 : Nat) = 1 then 0 else _; rw [if_pos rfl]
    | ⟨1, _⟩ => by show r.val = if (1024 : Nat) = 1 then 0 else r.val; rw [if_neg (by decide)]
    | ⟨2, _⟩ => by show 0 = if (1 : Nat) = 1 then 0 else _; rw [if_pos rfl]

/-- The column of row sums, cast from 1 × 1024 to 1 × 1024 × 1, reads the row's sum. -/
private theorem column_at (y : FVec Ideal S1x1024 .f32) (r : Fin 1024) :
    shapeCast S1x1024x1 y shapeCasts_S1x1024_S1x1024x1 (ix3 (0 : Fin 1) r (0 : Fin 1)) = y (ix2 (0 : Fin 1) r) :=
  shapeCast_apply y shapeCasts_S1x1024_S1x1024x1 (ix3 (0 : Fin 1) r (0 : Fin 1)) (ix2 (0 : Fin 1) r) (by
    rw [Shape.rowMajor_val_two, Shape.rowMajor_val_three]
    show 0 * 1024 + r.val = (0 * 1024 + r.val) * 1 + 0
    omega)

/-- The sum over the key axis of a 1 × 1024 × 4096 vector, at row `r`. -/
private theorem rowsum_at (y : FVec Ideal S1x1024x4096 .f32) (hacc : (0x00000000#32 : BitVec 32) = 0x00000000#32) (r : Fin 1024) :
    multiReduction (F := Ideal) .add [2] S1x1024 y 0x00000000#32 reduces_S1x1024x4096_S1x1024 (.inl rfl) hacc (ix2 (0 : Fin 1) r)
      = ∑ m : Fin 4096, y (ix3 (0 : Fin 1) r m) := by
  refine (Ideal.multiReduction_add_single y 0x00000000#32 reduces_S1x1024x4096_S1x1024 (.inl rfl) hacc (ix2 (0 : Fin 1) r)).trans ?_
  refine Finset.sum_congr rfl fun m _ => congrArg y (funext fun a => Fin.ext ?_)
  match a with
  | ⟨0, _⟩ => rfl
  | ⟨1, _⟩ => rfl
  | ⟨2, _⟩ => rfl

/-- THE BODY'S STORED VALUE at row `r`, over the three blocks it loads: the sum over the 4096 keys of
    `exp ((1 - (1 - ⟨row r, key m⟩) / ((1 - max r) + e)) / h)`. -/
private theorem pay_at (x0 : Vec Ideal S1x1024x128 .f32) (x1 : Vec Ideal S1x4096x128 .f32) (x2 : Vec Ideal S1x1024x1 .f32) (r : Fin 1024) :
    k1_pay1 (F := Ideal) x0 x1 x2 (ix3 (0 : Fin 1) r (0 : Fin 1))
      = ∑ m : Fin 4096, Ideal.exp (Ideal.div (Fns.One - Ideal.div (Fns.One - ∑ k : Fin 128, x0 (ix3 (0 : Fin 1) r k) * x1 (ix3 (0 : Fin 1) m k))
          ((Fns.One - x2 (ix3 (0 : Fin 1) r (0 : Fin 1))) + Fns.Em)) Fns.Hp) := by
  unfold k1_pay1
  simp only [shapeCast_self]
  rw [column_at, rowsum_at]
  refine Finset.sum_congr rfl fun m _ => ?_
  show Ideal.exp (Ideal.div (Fns.One - Ideal.div (Fns.One - matmul dot_S1x1024x128_S1x4096x128_S1x1024x4096_2_2_1_1_0_0 (some .fp32) x0 x1 (constant (F := Ideal) S1x1024x4096 .f32 0x00000000#32) (ix3 (0 : Fin 1) r m))
      (broadcastTo S1x1024x4096 (addf (subf (broadcast S1x1024x1 (FloatOps.ofBits (F := Ideal) .f32 0x3F800000#32)) x2) (broadcast S1x1024x1 (FloatOps.ofBits (F := Ideal) .f32 0x3A83126F#32)))
        broadcasts_S1x1024x1_S1x1024x4096 (ix3 (0 : Fin 1) r m))) Fns.Hp) = _
  rw [matmul_at, spread_at]
  rfl
/-! ## From the body's blocks to the array -/

private theorem hz : (![0, 0, 0] : Fin 3 → Nat) = fun _ => 0 := funext fun a => by fin_cases a <;> rfl

/-- The body's stored value at row `r` is the whole-array function at position `(b, n)`, as soon as the three loaded
    blocks read the three arrays there: the query row `(b, n)`, all key rows of batch `b`, the row's largest product. -/
private theorem pay_eq_G1 (A B : FVec Ideal S4x4096x128 .f32) (Mx : FVec Ideal S4x4096x1 .f32)
    (x0 : Vec Ideal S1x1024x128 .f32) (x1 : Vec Ideal S1x4096x128 .f32) (x2 : Vec Ideal S1x1024x1 .f32)
    (b : Fin 4) (n : Fin 4096) (r : Fin 1024)
    (h0 : ∀ k : Fin 128, x0 (ix3 (0 : Fin 1) r k) = A (ix3 b n k))
    (h1 : ∀ (m : Fin 4096) (k : Fin 128), x1 (ix3 (0 : Fin 1) m k) = B (ix3 b m k))
    (h2 : x2 (ix3 (0 : Fin 1) r (0 : Fin 1)) = Mx (ix3 b n (0 : Fin 1))) :
    k1_pay1 (F := Ideal) x0 x1 x2 (ix3 (0 : Fin 1) r (0 : Fin 1)) = Fns.G1 A B Mx (ix3 b n (0 : Fin 1)) := by
  rw [pay_at, Fns.G1_apply, h2]
  refine Finset.sum_congr rfl fun m _ => ?_
  have e : (∑ k : Fin 128, x0 (ix3 (0 : Fin 1) r k) * x1 (ix3 (0 : Fin 1) m k)) = Fns.dotAt A B b n m :=
    Finset.sum_congr rfl fun k _ => by rw [h0 k, h1 m k]
  rw [e]

/-- The printed index maps, decided once over the 16 grid points: point `t` is `(t / 4, t % 4)`; the query block, the
    block of largest products and the result block sit at block `(t / 4, t % 4, 0)`, the key block at `(t / 4, 0, 0)`. -/
private theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

private theorem point_lt (t : Fin cfg1.N) : t.val < 16 := t.isLt

/-- The query block at point `t` is rows `1024 (t % 4) …` of batch `t / 4` of the query array. -/
private theorem query_block_at (c : Dev nD) (t : Fin cfg1.N) (b : Fin 4) (n : Fin 4096) (r : Fin 1024) (k : Fin 128)
    (hb : b.val = t.val / 4) (hn : n.val = 1024 * (t.val % 4) + r.val) :
    (iblk1 (F := Ideal) V c 0 t : Vec Ideal S1x1024x128 .f32) (ix3 (0 : Fin 1) r k) = (V c main_v21 : FVec Ideal S4x4096x128 .f32) (ix3 b n k) := by
  obtain ⟨e00, e01, e02, -⟩ := idx_facts t
  show V c main_v21 (((cfg1.win 0).blk t).view.emb (ix3 (0 : Fin 1) r k)) = V c main_v21 (ix3 b n k)
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * r.val = n.val; omega
  | ⟨2, _⟩ => show win1_0.index t (2 : Fin 3) * 128 + 1 * k.val = k.val; omega

/-- The key block at point `t` is all 4096 rows of batch `t / 4` of the key array. -/
private theorem key_block_at (c : Dev nD) (t : Fin cfg1.N) (b : Fin 4) (m : Fin 4096) (k : Fin 128)
    (hb : b.val = t.val / 4) :
    (iblk1 (F := Ideal) V c 1 t : Vec Ideal S1x4096x128 .f32) (ix3 (0 : Fin 1) m k) = (V c main_v25 : FVec Ideal S4x4096x128 .f32) (ix3 b m k) := by
  obtain ⟨-, -, -, e10, e11, e12, -⟩ := idx_facts t
  show V c main_v25 (((cfg1.win 1).blk t).view.emb (ix3 (0 : Fin 1) m k)) = V c main_v25 (ix3 b m k)
  refine congrArg _ (funext fun a => Fin.ext ?_)
  match a with
  | ⟨0, _⟩ => show win1_1.index t (0 : Fin 3) * 1 + 1 * 0 = b.val; omega
  | ⟨1, _⟩ => show win1_1.index t (1 : Fin 3) * 4096 + 1 * m.val = m.val; omega
  | ⟨2, _⟩ => show win1_1.index t (2 : Fin 3) * 128 + 1 * k.val = k.val; omega

/-- The block of largest products at point `t` is rows `1024 (t % 4) …` of batch `t / 4` of that array. -/
private theorem max_block_at (c : Dev nD) (t : Fin cfg1.N) (b : Fin 4) (n : Fin 4096) (r : Fin 1024)
    (hb : b.val = t.val / 4) (hn : n.val = 1024 * (t.val % 4) + r.val) :
    (iblk1 (F := Ideal) V c 2 t : Vec Ideal S1x1024x1 .f32) (ix3 (0 : Fin 1) r (0 : Fin 1)) = (V c main_v26 : FVec Ideal S4x4096x1 .f32) (ix3 b n (0 : Fin 1)) := by
  obtain ⟨-, -, -, -, -, -, e20, e21, e22, -⟩ := idx_facts t
  show V c main_v26 (((cfg1.win 2).blk t).view.emb (ix3 (0 : Fin 1) r (0 : Fin 1))) = V c main_v26 (ix3 b n (0 : Fin 1))
  refine congrArg _ (funext fun a => Fin.ext ?_)
  match a with
  | ⟨0, _⟩ => show win1_2.index t (0 : Fin 3) * 1 + 1 * 0 = b.val; omega
  | ⟨1, _⟩ => show win1_2.index t (1 : Fin 3) * 1024 + 1 * r.val = n.val; omega
  | ⟨2, _⟩ => show win1_2.index t (2 : Fin 3) * 1 + 1 * 0 = 0; omega

/-- An index of the result array is in point `t`'s block iff each coordinate is in the block's range on its axis. -/
private theorem mem_blk (t : Fin cfg1.N) (i : S4x4096x1.Idx) :
    i ∈ ((cfg1.win 3).blk t).view.set ↔ ∀ a : Fin 3, win1_3.index t a * S1x1024x1.size a ≤ (i a).val ∧ (i a).val < win1_3.index t a * S1x1024x1.size a + S1x1024x1.size a := by
  show i ∈ ((View.whole main_v27).slice (win1_3.rect t)).set ↔ _
  rw [View.set_slice_whole, Rect.mem_set_unit]
  exact Iff.rfl

/-- WHAT POINT `t` WRITES BACK is block `t` of the whole-array function of the three arrays as the region finds them. -/
private theorem flushed_eq (c : Dev nD) (t : Fin cfg1.N) :
    (dat1 (F := Ideal) V c).flushed 3 t
      = ((cfg1.win 3).blk t).view.read (Elt Ideal) (Fns.G1 (V c main_v21) (V c main_v25) (V c main_v26) : FVec Ideal S4x4096x1 .f32) := by
  show (cfg1.win 3).cut (grid1.coords t) ((dat1 V c).after 3 t) = _
  rw [after1_3]
  unfold out1_3
  rw [View.canon_unit_zero hz]
  simp only [View.ld_unit_zero (S := S1x1024x128) hz, View.ld_unit_zero (S := S1x4096x128) hz, View.ld_unit_zero (S := S1x1024x1) hz]
  obtain ⟨-, -, -, -, -, -, -, -, -, e30, e31, e32⟩ := idx_facts t
  have ht := point_lt t
  funext j
  have hj0 : (j 0).val < 1 := (j 0).isLt
  have hj1 : (j 1).val < 1024 := (j 1).isLt
  have hj2 : (j 2).val < 1 := (j 2).isLt
  have ej : (j : S1x1024x1.Idx) = ix3 (0 : Fin 1) (⟨(j 1).val, hj1⟩ : Fin 1024) (0 : Fin 1) := funext fun a => Fin.ext (by
    match a with
    | ⟨0, _⟩ => show (j 0).val = 0; omega
    | ⟨1, _⟩ => rfl
    | ⟨2, _⟩ => show (j 2).val = 0; omega)
  have ei : (((cfg1.win 3).blk t).view.emb j : S4x4096x1.Idx) = ix3 (⟨t.val / 4, by omega⟩ : Fin 4) (⟨1024 * (t.val % 4) + (j 1).val, by omega⟩ : Fin 4096) (0 : Fin 1) := funext fun a => Fin.ext (by
    match a with
    | ⟨0, _⟩ => show win1_3.index t (0 : Fin 3) * 1 + 1 * (j 0).val = t.val / 4; omega
    | ⟨1, _⟩ => show win1_3.index t (1 : Fin 3) * 1024 + 1 * (j 1).val = 1024 * (t.val % 4) + (j 1).val; omega
    | ⟨2, _⟩ => show win1_3.index t (2 : Fin 3) * 1 + 1 * (j 2).val = 0; omega)
  show k1_pay1 (F := Ideal) (iblk1 V c 0 t) (iblk1 V c 1 t) (iblk1 V c 2 t) (j : S1x1024x1.Idx) = Fns.G1 (V c main_v21) (V c main_v25) (V c main_v26) (((cfg1.win 3).blk t).view.emb j)
  refine (congrArg (k1_pay1 (F := Ideal) (iblk1 V c 0 t) (iblk1 V c 1 t) (iblk1 V c 2 t)) ej).trans ?_
  refine Eq.trans ?_ (congrArg (Fns.G1 (V c main_v21) (V c main_v25) (V c main_v26)) ei.symm)
  exact pay_eq_G1 (V c main_v21) (V c main_v25) (V c main_v26) (iblk1 V c 0 t) (iblk1 V c 1 t) (iblk1 V c 2 t)
    ⟨t.val / 4, by omega⟩ ⟨1024 * (t.val % 4) + (j 1).val, by omega⟩ ⟨(j 1).val, hj1⟩
    (fun k => query_block_at V c t _ _ _ k rfl rfl) (fun m k => key_block_at V c t _ m k rfl) (max_block_at V c t _ _ _ rfl rfl)

/-- THE COVER: row `n` of batch `b` is in the block of point `4 b + n / 1024`, and every point writes its block back. -/
private theorem cover (i : S4x4096x1.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1 := (i 2).isLt
  have hlt : 4 * (i 0).val + (i 1).val / 1024 < 16 := by omega
  obtain ⟨t, tv⟩ : ∃ t : Fin cfg1.N, t.val = 4 * (i 0).val + (i 1).val / 1024 := ⟨⟨4 * (i 0).val + (i 1).val / 1024, hlt⟩, rfl⟩
  obtain ⟨-, -, -, -, -, -, -, -, -, e30, e31, e32⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1 ≤ (i 2).val ∧ (i 2).val < win1_3.index t (2 : Fin 3) * 1 + 1; omega

theorem arr1 (c : Dev nD) :
    ((dat1 (F := Ideal) V c).arrAt 3 cfg1.N : FVec Ideal S4x4096x1 .f32)
      = Cert.KernelIdeal.Fns.G1 (V c main_v21) (V c main_v25) (V c main_v26) :=
  (dat1 (F := Ideal) V c).arrAt_eq_of_cover 3 (Cert.KernelIdeal.Fns.G1 (V c main_v21) (V c main_v25) (V c main_v26))
    (fun t _ => flushed_eq V c t) cover

end Cert.KernelIdeal.Reg1

end
-- ==== Proof.KernelTail.lean ====
/-
  The host operations after the second region, read at a result index: the two 4 × 4096 × 1 arrays the regions
  left are reshaped to 4 × 4096, combined element by element, summed over the 4096 positions, divided by 4096,
  and minus the logarithm is taken.
-/
import proofs.«160792_j27754078667510_1_alg».proof.Proof.Gen.KernelIdeal.Frame
import proofs.«160792_j27754078667510_1_alg».proof.Proof.KernelFns
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws
set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen

/-- The closing host operations as one function of the two 4 × 4096 × 1 arrays: both reshaped to 4 × 4096, then
    `exp ((e / ((1 - Mx) + e)) / h) / Sw` element by element, the sum over the second axis from 0, the division
    by 4096, the logarithm and the negation. -/
private def tailFn (Mx Sw : FVec Ideal S4x4096x1 .f32) : FVec Ideal S4 .f32 :=
  Host.negf (F := Ideal) (Host.log (F := Ideal) (Host.divf (F := Ideal)
    (Host.reduceAdd (F := Ideal)
      (Host.divf (F := Ideal)
        (Host.exp (F := Ideal) (Host.divf (F := Ideal)
          (Host.divf (F := Ideal)
            (broadcastInDim S4x4096 ![] bcast_S_S4x4096 (constant (F := Ideal) S_ .f32 0x3A83126F#32))
            (addf (F := Ideal)
              (subf (F := Ideal) (broadcastInDim S4x4096 ![] bcast_S_S4x4096 (constant (F := Ideal) S_ .f32 0x3F800000#32))
                (shapeCast S4x4096 Mx shapeCasts_S4x4096x1_S4x4096))
              (broadcastInDim S4x4096 ![] bcast_S_S4x4096 (constant (F := Ideal) S_ .f32 0x3A83126F#32))))
          (broadcastInDim S4x4096 ![] bcast_S_S4x4096 (constant (F := Ideal) S_ .f32 0x3DCCCCCD#32))))
        (shapeCast S4x4096 Sw shapeCasts_S4x4096x1_S4x4096))
      (constant (F := Ideal) S_ .f32 0x00000000#32) reducesTo_S4x4096_S4_d1 h_S_)
    (broadcastInDim S4 ![] bcast_S_S4 (constant (F := Ideal) S_ .f32 0x45800000#32))))

/-- The fold of the closing operations over any buffer contents leaves the last result at `tailFn` of the two
    region arrays' contents. -/
private theorem after_v44 (X : Valuation τ sig (Elt Ideal)) :
    (StableHlo.after hostOps2 X (Proc.devRef .tc main_v44) : FVec Ideal S4 .f32)
      = tailFn (X (Proc.devRef .tc main_v26)) (X (Proc.devRef .tc main_v27)) := by
  after_results
  rfl

/-- The reshape of a 4 × 4096 × 1 array to 4 × 4096 at `(b, n)` reads `(b, n, 0)`: both have row-major
    position `b · 4096 + n`. -/
private theorem reshape_apply (x : FVec Ideal S4x4096x1 .f32) (b : Fin 4) (n : Fin 4096) :
    shapeCast S4x4096 x shapeCasts_S4x4096x1_S4x4096 (ix2 b n) = x (ix3 b n (0 : Fin 1)) :=
  shapeCast_apply x shapeCasts_S4x4096x1_S4x4096 (ix2 b n) (ix3 b n (0 : Fin 1))
    (by rw [Shape.rowMajor_val_three, Shape.rowMajor_val_two]
        show (b.val * 4096 + n.val) * 1 + 0 = b.val * 4096 + n.val
        omega)

/-- `tailFn` at result index `b`: the sum over the second axis is the sum over `n` of the element at `(b, n)`. -/
private theorem tailFn_apply (Mx Sw : FVec Ideal S4x4096x1 .f32) (b : Fin 4) :
    tailFn Mx Sw (ix1 b) = Cert.KernelIdeal.Fns.tailAt Mx Sw b := by
  unfold tailFn Cert.KernelIdeal.Fns.tailAt
  simp only [Host.negf, Host.log, Ideal.hostNegf_def, Ideal.negf_def, Ideal.hostUnary_log_def, hostDivf_apply,
    hostReduceAdd_apply, broadcastInDim_scalar_apply]
  rw [Ideal.hostReduceAdd_single reducesTo_S4x4096_S4_d1 (by decide)]
  refine congrArg (fun z => -(Ideal.log (Ideal.div z _))) ?_
  refine congrArg (_ + ·) (Finset.sum_congr rfl fun (k : Fin 4096) _ => ?_)
  have hj : (Shape.Reduces.lift (by decide : S4x4096.Reduces [1] S4) (ix1 b) k : S4x4096.Idx) = ix2 b k :=
    funext fun a => Fin.ext (by match a with | ⟨0, _⟩ => rfl | ⟨1, _⟩ => rfl)
  rw [hj]
  simp only [hostDivf_apply, Host.exp, Ideal.hostUnary_exp_def, addf_apply, subf_apply, broadcastInDim_scalar_apply,
    reshape_apply]
  rfl

variable (m : (ℓ : Loc nD τ sig) → Buf (Elt Ideal) ℓ) (ρ : Dev nD → PrngReg)

theorem W4_v44_apply (c : Dev nD) (b : Fin 4) :
    (W4 m ρ c (Proc.devRef .tc main_v44) : FVec Ideal S4 .f32) (ix1 b)
      = Cert.KernelIdeal.Fns.tailAt (W3 m ρ c (Proc.devRef .tc main_v26)) (W3 m ρ c (Proc.devRef .tc main_v27)) b := by
  have e : (W4 m ρ c (Proc.devRef .tc main_v44) : FVec Ideal S4 .f32)
      = tailFn (W3 m ρ c (Proc.devRef .tc main_v26)) (W3 m ρ c (Proc.devRef .tc main_v27)) :=
    after_v44 (W3 m ρ c)
  exact (congrFun e (ix1 b)).trans (tailFn_apply _ _ b)

end Cert.KernelIdeal.Tail

end
-- ==== Proof.LibFold.lean ====
/-
  A fold of `max` (from `⊥`) or of `min` (from `⊤`) over a row of COERCED REALS is the coercion of the row's
  largest, respectively smallest, entry: the coercion of the reals into the extended reals is monotone, and the
  row is not empty, so the initial value never survives.
-/
import proofs.«160792_j27754078667510_1_alg».proof.Proof.LibCoe
import proofs.«160792_j27754078667510_1_alg».proof.Proof.RowDefs

noncomputable section

namespace Cert.LibFold

open Finset Cert.RowMath

/-- Over any non-empty finite index set, folding `max` from `⊥` over coerced reals gives the coercion of the
    largest entry: by induction on the set, adding one index at a time. -/
private theorem fold_max_aux {ι : Type*} (s : Finset ι) (hs : s.Nonempty) (f : ι → ℝ) :
    s.fold max (⊥ : EReal) (fun m => ((f m : ℝ) : EReal)) = ((s.sup' hs f : ℝ) : EReal) := by
  induction hs using Finset.Nonempty.cons_induction with
  | singleton a => rw [Finset.fold_singleton, Finset.sup'_singleton, max_eq_left bot_le]
  | cons a s ha hs ih => rw [Finset.fold_cons, ih, Finset.sup'_cons hs, Cert.LibCoe.max_coe]

/-- The same for `min` from `⊤` and the smallest entry. -/
private theorem fold_min_aux {ι : Type*} (s : Finset ι) (hs : s.Nonempty) (f : ι → ℝ) :
    s.fold min (⊤ : EReal) (fun m => ((f m : ℝ) : EReal)) = ((s.inf' hs f : ℝ) : EReal) := by
  induction hs using Finset.Nonempty.cons_induction with
  | singleton a => rw [Finset.fold_singleton, Finset.inf'_singleton, min_eq_left le_top]
  | cons a s ha hs ih => rw [Finset.fold_cons, ih, Finset.inf'_cons hs, Cert.LibCoe.min_coe]

theorem fold_max_coe (f : Fin 4096 → ℝ) :
    (univ : Finset (Fin 4096)).fold max (⊥ : EReal) (fun m => ((f m : ℝ) : EReal)) = ((rmax f : ℝ) : EReal) :=
  fold_max_aux univ ne4096 f

theorem fold_min_coe (f : Fin 4096 → ℝ) :
    (univ : Finset (Fin 4096)).fold min (⊤ : EReal) (fun m => ((f m : ℝ) : EReal)) = ((rmin f : ℝ) : EReal) :=
  fold_min_aux univ ne4096 f

end Cert.LibFold

end
-- ==== Proof.RowMath.lean ====
/-
  One row of the affinity matrix, over the real numbers.

  Fix a row of cosines `c_m` (m = 0 … 4095), every one at most 1, and two positive numbers: the guard `e` and
  the bandwidth `h`. With `d_m = 1 - c_m`, `D = min_m d_m` and `w_m = exp ((1 - d_m / (D + e)) / h)`, the
  reference takes `max_m (w_m / Σ w)`. Since `D + e > 0` the weight falls as `d` grows, so the largest weight is
  the one at `d = D`, where `1 - D / (D + e) = e / (D + e)`; and `D = 1 - max_m c_m`. Hence the row's value is
  `exp ((e / ((1 - max c) + e)) / h) / Σ_m exp ((1 - (1 - c_m) / ((1 - max c) + e)) / h)`, which is what the
  kernel computes from the row's maximum alone.

  Also here: two facts about sums of squares that bound a cosine of normalised vectors by 1.
-/
import proofs.«160792_j27754078667510_1_alg».proof.Proof.RowDefs
import Mathlib.Analysis.SpecialFunctions.Exp
import Mathlib.Analysis.SpecialFunctions.Sqrt
import Mathlib.Algebra.Order.Chebyshev
import Mathlib.Order.Lattice
import Mathlib.Data.Finset.Lattice.Fold
import Mathlib.Tactic.NormNum
import Mathlib.Tactic.Linarith
import Mathlib.Tactic.Positivity

noncomputable section

namespace Cert.RowMath

open Finset

/-- Every entry of a row is at most the row's largest entry. -/
private theorem le_rmax (f : Fin 4096 → ℝ) (m : Fin 4096) : f m ≤ rmax f :=
  Finset.le_sup' f (mem_univ m)

/-- A bound on every entry bounds the largest entry. -/
private theorem rmax_le {f : Fin 4096 → ℝ} {a : ℝ} (hf : ∀ m, f m ≤ a) : rmax f ≤ a :=
  Finset.sup'_le ne4096 f (fun m _ => hf m)

/-- The largest entry is attained. -/
private theorem exists_eq_rmax (f : Fin 4096 → ℝ) : ∃ m, rmax f = f m := by
  obtain ⟨m, _, hm⟩ := Finset.exists_mem_eq_sup' ne4096 f
  exact ⟨m, hm⟩

/-- A monotone map carries the largest entry of a row to the largest entry of the mapped row. -/
private theorem rmax_comp_mono (g : ℝ → ℝ) (hg : Monotone g) (cs : Fin 4096 → ℝ) :
    rmax (fun m => g (cs m)) = g (rmax cs) := by
  apply le_antisymm
  · exact rmax_le (fun m => hg (le_rmax cs m))
  · obtain ⟨m0, hm0⟩ := exists_eq_rmax cs
    rw [hm0]
    exact le_rmax (fun m => g (cs m)) m0

/-- The smallest distance is one minus the largest cosine. -/
theorem rmin_one_sub (cs : Fin 4096 → ℝ) : rmin (fun m => 1 - cs m) = 1 - rmax cs := by
  apply le_antisymm
  · -- the minimum is below the entry at the place where the cosine is largest
    obtain ⟨m0, hm0⟩ := exists_eq_rmax cs
    rw [hm0]
    exact Finset.inf'_le (fun m => 1 - cs m) (mem_univ m0)
  · -- every distance is at least one minus the largest cosine
    refine Finset.le_inf' ne4096 (fun m => 1 - cs m) (fun m _ => ?_)
    have := le_rmax cs m
    linarith

/-- Every cosine at most one: the guarded smallest distance is positive. -/
theorem gap_pos {e : ℝ} (he : 0 < e) (cs : Fin 4096 → ℝ) (hcs : ∀ m, cs m ≤ 1) : 0 < (1 - rmax cs) + e := by
  have h1 : rmax cs ≤ 1 := rmax_le hcs
  linarith

/-- A sum of exponentials is positive. -/
theorem sumExp_pos (e h D : ℝ) (cs : Fin 4096 → ℝ) : 0 < sumExp e h D cs := by
  unfold sumExp
  exact Finset.sum_pos (fun m _ => Real.exp_pos _) ne4096

/-- The row's value is positive. -/
theorem rowVal_pos (e h : ℝ) (cs : Fin 4096 → ℝ) : 0 < rowVal e h cs := by
  unfold rowVal
  exact div_pos (Real.exp_pos _) (sumExp_pos _ _ _ _)

/-- THE ROW LAW: the largest normalised weight of the row, as the reference takes it (the smallest distance
    recomputed as a minimum, every weight divided by the sum, then the maximum), is the row's value. -/
theorem ref_row {e h : ℝ} (he : 0 < e) (hh : 0 < h) (cs : Fin 4096 → ℝ) (hcs : ∀ m, cs m ≤ 1) :
    rmax (fun m => Real.exp ((1 - (1 - cs m) / (rmin (fun k => 1 - cs k) + e)) / h)
        / sumExp e h (rmin (fun k => 1 - cs k)) cs)
      = rowVal e h cs := by
  rw [rmin_one_sub]
  have hD : 0 < (1 - rmax cs) + e := gap_pos he cs hcs
  have hne : (1 - rmax cs) + e ≠ 0 := hD.ne'
  have hS : 0 < sumExp e h (1 - rmax cs) cs := sumExp_pos _ _ _ _
  -- at the smallest distance D the exponent's numerator is e / (D + e)
  have key : 1 - (1 - rmax cs) / ((1 - rmax cs) + e) = e / ((1 - rmax cs) + e) := by
    rw [eq_div_iff hne, sub_mul, one_mul, div_mul_cancel₀ _ hne]
    ring
  -- the normalised weight rises with the cosine
  have hmono : Monotone (fun c : ℝ =>
      Real.exp ((1 - (1 - c) / ((1 - rmax cs) + e)) / h) / sumExp e h (1 - rmax cs) cs) := by
    intro a b hab
    have h1 : (1 - b) / ((1 - rmax cs) + e) ≤ (1 - a) / ((1 - rmax cs) + e) :=
      div_le_div_of_nonneg_right (by linarith) hD.le
    have h2 : (1 - (1 - a) / ((1 - rmax cs) + e)) / h ≤ (1 - (1 - b) / ((1 - rmax cs) + e)) / h :=
      div_le_div_of_nonneg_right (by linarith) hh.le
    exact div_le_div_of_nonneg_right (Real.exp_le_exp.mpr h2) hS.le
  unfold rowVal
  rw [← key]
  exact rmax_comp_mono (fun c : ℝ =>
      Real.exp ((1 - (1 - c) / ((1 - rmax cs) + e)) / h) / sumExp e h (1 - rmax cs) cs) hmono cs

/-- Cauchy–Schwarz at unit length: two vectors whose squares sum to at most one have inner product at most one. -/
theorem dot_le_one {n : ℕ} (u v : Fin n → ℝ) (hu : ∑ k, u k * u k ≤ 1) (hv : ∑ k, v k * v k ≤ 1) :
    ∑ k, u k * v k ≤ 1 := by
  have hcs := Finset.sum_mul_sq_le_sq_mul_sq univ u v
  have hu' : ∑ k, u k ^ 2 ≤ 1 := by simp only [pow_two]; exact hu
  have hv' : ∑ k, v k ^ 2 ≤ 1 := by simp only [pow_two]; exact hv
  have hv0 : 0 ≤ ∑ k, v k ^ 2 := Finset.sum_nonneg (fun k _ => sq_nonneg _)
  have h1 : (∑ k, u k * v k) ^ 2 ≤ 1 := by
    calc (∑ k, u k * v k) ^ 2 ≤ (∑ k, u k ^ 2) * ∑ k, v k ^ 2 := hcs
      _ ≤ 1 * 1 := mul_le_mul hu' hv' hv0 zero_le_one
      _ = 1 := one_mul 1
  exact (abs_le.mp ((sq_le_one_iff_abs_le_one _).mp h1)).2

/-- A vector divided by its length plus a positive guard has squares summing to at most one. -/
theorem normalized_le_one {n : ℕ} (f : Fin n → ℝ) {ε : ℝ} (hε : 0 < ε) :
    ∑ k, (f k / (Real.sqrt (∑ j, f j * f j) + ε)) * (f k / (Real.sqrt (∑ j, f j * f j) + ε)) ≤ 1 := by
  have hsum0 : 0 ≤ ∑ j, f j * f j := Finset.sum_nonneg (fun j _ => mul_self_nonneg _)
  -- s is the length: s ≥ 0 and s * s is the sum of squares
  obtain ⟨s, hs⟩ : ∃ s, s = Real.sqrt (∑ j, f j * f j) := ⟨_, rfl⟩
  have hs0 : 0 ≤ s := by rw [hs]; exact Real.sqrt_nonneg _
  have hss : s * s = ∑ j, f j * f j := by rw [hs]; exact Real.mul_self_sqrt hsum0
  rw [← hs]
  have hpos : 0 < s + ε := by linarith
  have heq : ∑ k, (f k / (s + ε)) * (f k / (s + ε)) = (∑ k, f k * f k) / ((s + ε) * (s + ε)) := by
    rw [div_eq_mul_inv, Finset.sum_mul]
    refine Finset.sum_congr rfl (fun k _ => ?_)
    rw [div_mul_div_comm, div_eq_mul_inv]
  rw [heq, ← hss, div_le_one (mul_pos hpos hpos)]
  exact mul_self_le_mul_self hs0 (by linarith)

end Cert.RowMath

end
-- ==== Proof.KernelEpilogue.lean ====
/-
  The kernel's value from real cosines. When every inner product `Σ_k A[b, n, k] · B[b, m, k]` is a coerced real
  `cs b n m ≤ 1`, region 0's array holds the coerced row maxima, region 1's the coerced sums of weights, and the
  closing operations give the coercion of minus the logarithm of the mean of the rows' values: every operation
  meets coerced reals away from its corner (the guarded distance is positive, the sums of exponentials are
  positive, the mean is positive).
-/
import proofs.«160792_j27754078667510_1_alg».proof.Proof.KernelFns
import proofs.«160792_j27754078667510_1_alg».proof.Proof.LibCoe
import proofs.«160792_j27754078667510_1_alg».proof.Proof.LibFold
import proofs.«160792_j27754078667510_1_alg».proof.Proof.Consts
import proofs.«160792_j27754078667510_1_alg».proof.Proof.RowMath
import Mathlib.Analysis.SpecialFunctions.Log.Basic

noncomputable section

namespace Cert.KernelIdeal.Epilogue

open Idealize.ShloMosaic Idealize.ShloMosaic.ValueIdx Finset
open Cert.KernelIdeal Cert.KernelIdeal.Fns Cert.Consts

/-- The pattern of `1.0` is the coerced real `1`. -/
private theorem one_eq : Fns.One = ((1 : ℝ) : EReal) := Cert.LibCoe.ofBits_one

/-- The pattern of the distance guard is the coerced real `eM`. -/
private theorem em_eq : Em = ((eM : ℝ) : EReal) := Cert.Consts.ofBits_eM

/-- The pattern of the bandwidth is the coerced real `hP`. -/
private theorem hp_eq : Hp = ((hP : ℝ) : EReal) := Cert.Consts.ofBits_hP

/-- The fold of `max` from the pattern of `-∞` over a row of coerced reals is the coerced largest entry. -/
private theorem row_max (d : Fin 4096 → EReal) (c : Fin 4096 → ℝ) (hd : ∀ m, d m = ((c m : ℝ) : EReal)) :
    (Finset.univ : Finset (Fin 4096)).fold max (Ideal.ofBits .f32 0xFF800000#32) (fun m => d m)
      = ((Cert.RowMath.rmax c : ℝ) : EReal) := by
  simp only [hd]
  rw [Cert.LibCoe.ofBits_neg_inf]
  exact Cert.LibFold.fold_max_coe c

/-- One weight: with a coerced cosine `c` and a coerced maximum `M` whose guarded distance `(1 - M) + e` is not
    zero, every operation meets coerced reals off its corner. -/
private theorem weight_coe (c M : ℝ) (hD : (1 - M) + eM ≠ 0) :
    Ideal.exp (Ideal.div (Fns.One - Ideal.div (Fns.One - (c : EReal)) ((Fns.One - (M : EReal)) + Em)) Hp)
      = ((Real.exp ((1 - (1 - c) / ((1 - M) + eM)) / hP) : ℝ) : EReal) := by
  rw [one_eq, em_eq, hp_eq]
  simp only [Cert.LibCoe.sub_coe, Cert.LibCoe.add_coe]
  rw [Cert.LibCoe.div_coe_coe _ hD, Cert.LibCoe.sub_coe, Cert.LibCoe.div_coe_coe _ hP_pos.ne',
    Cert.LibCoe.exp_coe]

/-- The weight at the smallest distance, the same way. -/
private theorem numer_coe (M : ℝ) (hD : (1 - M) + eM ≠ 0) :
    Ideal.exp (Ideal.div (Ideal.div Em ((Fns.One - (M : EReal)) + Em)) Hp)
      = ((Real.exp ((eM / ((1 - M) + eM)) / hP) : ℝ) : EReal) := by
  rw [one_eq, em_eq, hp_eq]
  simp only [Cert.LibCoe.sub_coe, Cert.LibCoe.add_coe]
  rw [Cert.LibCoe.div_coe_coe _ hD, Cert.LibCoe.div_coe_coe _ hP_pos.ne', Cert.LibCoe.exp_coe]

/-- The sum of a row's weights, the row's entries being coerced reals at most `1` and the maximum the coerced
    largest entry. -/
private theorem row_sum (d : Fin 4096 → EReal) (c : Fin 4096 → ℝ) (hc : ∀ m, c m ≤ 1)
    (hd : ∀ m, d m = ((c m : ℝ) : EReal)) :
    ∑ m : Fin 4096, Ideal.exp (Ideal.div (Fns.One - Ideal.div (Fns.One - d m)
        ((Fns.One - ((Cert.RowMath.rmax c : ℝ) : EReal)) + Em)) Hp)
      = ((Cert.RowMath.sumExp eM hP (1 - Cert.RowMath.rmax c) c : ℝ) : EReal) := by
  have hD : (1 - Cert.RowMath.rmax c) + eM ≠ 0 := (Cert.RowMath.gap_pos eM_pos c hc).ne'
  simp only [hd, weight_coe _ _ hD]
  rw [Cert.LibCoe.sum_coe]
  rfl

/-- The row's value: the weight at the smallest distance over the (positive) sum of the weights. -/
private theorem row_val (c : Fin 4096 → ℝ) (hc : ∀ m, c m ≤ 1) :
    Ideal.div (Ideal.exp (Ideal.div (Ideal.div Em ((Fns.One - ((Cert.RowMath.rmax c : ℝ) : EReal)) + Em)) Hp))
        ((Cert.RowMath.sumExp eM hP (1 - Cert.RowMath.rmax c) c : ℝ) : EReal)
      = ((Cert.RowMath.rowVal eM hP c : ℝ) : EReal) := by
  have hD : (1 - Cert.RowMath.rmax c) + eM ≠ 0 := (Cert.RowMath.gap_pos eM_pos c hc).ne'
  rw [numer_coe _ hD, Cert.LibCoe.div_coe_coe _ (Cert.RowMath.sumExp_pos _ _ _ _).ne']
  rfl

theorem kernel_value (A B : FVec Ideal S4x4096x128 .f32) (cs : Fin 4 → Fin 4096 → Fin 4096 → ℝ)
    (hcs : ∀ b n m, cs b n m ≤ 1) (hAB : ∀ b n m, dotAt A B b n m = ((cs b n m : ℝ) : EReal)) (b : Fin 4) :
    tailAt (G0 A B) (G1 A B (G0 A B)) b
      = ((-Real.log ((∑ n : Fin 4096, Cert.RowMath.rowVal eM hP (cs b n)) / 4096) : ℝ) : EReal) := by
  -- region 0's array holds the coerced row maxima
  have h0 : ∀ n : Fin 4096, (G0 A B (ix3 b n (0 : Fin 1)) : EReal)
      = ((Cert.RowMath.rmax (cs b n) : ℝ) : EReal) := by
    intro n
    rw [Fns.G0_apply]
    exact row_max (fun m => dotAt A B b n m) (cs b n) (fun m => hAB b n m)
  -- region 1's array holds the coerced sums of weights
  have h1 : ∀ n : Fin 4096, (G1 A B (G0 A B) (ix3 b n (0 : Fin 1)) : EReal)
      = ((Cert.RowMath.sumExp eM hP (1 - Cert.RowMath.rmax (cs b n)) (cs b n) : ℝ) : EReal) := by
    intro n
    rw [Fns.G1_apply, h0 n]
    exact row_sum (fun m => dotAt A B b n m) (cs b n) (hcs b n) (fun m => hAB b n m)
  -- every summand of the closing sum is a coerced row value
  have h2 : ∀ n : Fin 4096,
      Ideal.div (Ideal.exp (Ideal.div (Ideal.div Em
          ((Fns.One - ((Cert.RowMath.rmax (cs b n) : ℝ) : EReal)) + Em)) Hp))
        ((Cert.RowMath.sumExp eM hP (1 - Cert.RowMath.rmax (cs b n)) (cs b n) : ℝ) : EReal)
        = ((Cert.RowMath.rowVal eM hP (cs b n) : ℝ) : EReal) :=
    fun n => row_val (cs b n) (hcs b n)
  -- the mean of the row values is positive
  have hpos : 0 < (∑ n : Fin 4096, Cert.RowMath.rowVal eM hP (cs b n)) / 4096 :=
    div_pos (Finset.sum_pos (fun n _ => Cert.RowMath.rowVal_pos _ _ _) Cert.RowMath.ne4096) (by norm_num)
  unfold tailAt
  simp only [h0, h1, h2]
  rw [Cert.LibCoe.sum_coe, Cert.LibCoe.ofBits_zero, Cert.LibCoe.add_coe, zero_add, Cert.Consts.ofBits_4096,
    Cert.LibCoe.div_coe_coe _ (by norm_num : (4096 : ℝ) ≠ 0), Cert.LibCoe.log_coe_pos hpos, Cert.LibCoe.neg_coe]

end Cert.KernelIdeal.Epilogue

end
-- ==== Proof.SpecBound.lean ====
/-
  Every cosine of the specification is at most one: both factors are vectors divided by their own length plus a
  positive guard, so their squares sum to at most one, and Cauchy–Schwarz bounds the inner product.
-/
import proofs.«160792_j27754078667510_1_alg».proof.Proof.Spec
import proofs.«160792_j27754078667510_1_alg».proof.Proof.RowMath

noncomputable section

namespace Cert.Spec

open Finset Cert.Consts

theorem cosv_le_one (x y : Arr) (b : Fin 4) (n m : Fin 4096) : cosv x y b n m ≤ 1 := by
  unfold cosv
  -- each factor is a centred vector over its length plus the guard: its squares sum to at most one
  have hx : ∑ c : Fin 128, unit x y b n c * unit x y b n c ≤ 1 := by
    unfold unit nrm
    exact RowMath.normalized_le_one (cen x y b n) epsN_pos
  have hy : ∑ c : Fin 128, unit y y b m c * unit y y b m c ≤ 1 := by
    unfold unit nrm
    exact RowMath.normalized_le_one (cen y y b m) epsN_pos
  exact RowMath.dot_le_one (unit x y b n) (unit y y b m) hx hy

end Cert.Spec

end
-- ==== Proof.KernelValue.lean ====
/-
  The kernel's result from real arguments.

  After the last host operation the result array is the closing operations' function of the two arrays the
  regions left. Region 1 wrote the rows' sums of weights; the array of the rows' largest inner products, which
  region 0 wrote, is only read by region 1 and so still holds what region 0 left. Both regions read the two
  normalised arrays as the first host stretch left them. From coerced real arguments those hold the coerced
  unit vectors, their inner products are the coerced cosines (each at most one), and the closing operations give
  the coercion of the specification's result.
-/
import proofs.«160792_j27754078667510_1_alg».proof.Proof.Gen.KernelIdeal.Frame
import proofs.«160792_j27754078667510_1_alg».proof.Proof.KernelFns
import proofs.«160792_j27754078667510_1_alg».proof.Proof.KernelPre
import proofs.«160792_j27754078667510_1_alg».proof.Proof.KernelReg0
import proofs.«160792_j27754078667510_1_alg».proof.Proof.KernelReg1
import proofs.«160792_j27754078667510_1_alg».proof.Proof.KernelTail
import proofs.«160792_j27754078667510_1_alg».proof.Proof.KernelEpilogue
import proofs.«160792_j27754078667510_1_alg».proof.Proof.SpecBound
import proofs.«160792_j27754078667510_1_alg».proof.Proof.Coe
import proofs.«160792_j27754078667510_1_alg».proof.Proof.LibCoe
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Region 1 never writes back its third window (the rows' largest inner products: an input). -/
theorem noflush1_2 : ∀ t : Fin cfg1.N, (cfg1.win 2).flush t = false :=
  (by decide +kernel : ∀ t : Fin grid1.N, win1_2.flush t = false)

/-- At the first region's exit the array of row maxima holds region 0's whole-array function of the two
    normalised arrays. -/
theorem V2_v26 (c : Dev nD) :
    (V2 m ρ c main_v26 : FVec Ideal S4x4096x1 .f32) = Cert.KernelIdeal.Fns.G0 (V1 m ρ c main_v21) (V1 m ρ c main_v25) :=
  (W2_arr m ρ c 2).trans (Cert.KernelIdeal.Reg0.arr0 (V1 m ρ) c)

/-- Region 0 never writes back its first two windows (the two normalised arrays: inputs). -/
theorem noflush0_0 : ∀ t : Fin cfg0.N, (cfg0.win 0).flush t = false :=
  (by decide +kernel : ∀ t : Fin grid0.N, win0_0.flush t = false)
theorem noflush0_1 : ∀ t : Fin cfg0.N, (cfg0.win 1).flush t = false :=
  (by decide +kernel : ∀ t : Fin grid0.N, win0_1.flush t = false)

/-- Region 0 only reads the two normalised arrays: region 1 finds them as the first host stretch left them. -/
theorem V2_v21 (c : Dev nD) : V2 m ρ c main_v21 = V1 m ρ c main_v21 := by
  refine (W2_arr m ρ c 0).trans ?_
  refine (funext fun i => ?_ : (dat0 (V1 m ρ) c).arrAt 0 cfg0.N = (dat0 (V1 m ρ) c).A 0).trans (A_eq0 (V1 m ρ) c 0)
  exact (dat0 (V1 m ρ) c).arrAt_apply_of_forall_not_mem 0 cfg0.N i fun t _ hf _ => by
    rw [noflush0_0 t] at hf; exact absurd hf (by decide)
theorem V2_v25 (c : Dev nD) : V2 m ρ c main_v25 = V1 m ρ c main_v25 := by
  refine (W2_arr m ρ c 1).trans ?_
  refine (funext fun i => ?_ : (dat0 (V1 m ρ) c).arrAt 1 cfg0.N = (dat0 (V1 m ρ) c).A 1).trans (A_eq0 (V1 m ρ) c 1)
  exact (dat0 (V1 m ρ) c).arrAt_apply_of_forall_not_mem 1 cfg0.N i fun t _ hf _ => by
    rw [noflush0_1 t] at hf; exact absurd hf (by decide)

/-- At the second region's exit the array of row maxima is still region 0's. -/
theorem W3_v26 (c : Dev nD) :
    (W3 m ρ c (Proc.devRef .tc main_v26) : FVec Ideal S4x4096x1 .f32)
      = Cert.KernelIdeal.Fns.G0 (V1 m ρ c main_v21) (V1 m ρ c main_v25) := by
  refine (W3_arr m ρ c 2).trans ?_
  refine (funext fun i => ?_ : (dat1 (V2 m ρ) c).arrAt 2 cfg1.N = (dat1 (V2 m ρ) c).A 2).trans ?_
  · exact (dat1 (V2 m ρ) c).arrAt_apply_of_forall_not_mem 2 cfg1.N i fun t _ hf _ => by
      rw [noflush1_2 t] at hf; exact absurd hf (by decide)
  · exact (A_eq1 (V2 m ρ) c 2).trans (V2_v26 m ρ c)

/-- At the second region's exit the array of row sums holds region 1's whole-array function. -/
theorem W3_v27 (c : Dev nD) :
    (W3 m ρ c (Proc.devRef .tc main_v27) : FVec Ideal S4x4096x1 .f32)
      = Cert.KernelIdeal.Fns.G1 (V1 m ρ c main_v21) (V1 m ρ c main_v25)
          (Cert.KernelIdeal.Fns.G0 (V1 m ρ c main_v21) (V1 m ρ c main_v25)) := by
  refine (W3_arr m ρ c 3).trans ?_
  rw [Cert.KernelIdeal.Reg1.arr1 (V2 m ρ) c, V2_v21 m ρ c, V2_v25 m ρ c, V2_v26 m ρ c]

/-- The inner products of the two normalised arrays are the coerced cosines. -/
theorem dot_coe (c : Dev nD) (x y : Cert.Spec.Arr)
    (hx : m ((c.tc : Thread nD τ).loc main_arg0) = Cert.Coe.coeArr x)
    (hy : m ((c.tc : Thread nD τ).loc main_arg1) = Cert.Coe.coeArr y) (b : Fin 4) (n k : Fin 4096) :
    Cert.KernelIdeal.Fns.dotAt (V1 m ρ c main_v21) (V1 m ρ c main_v25) b n k
      = ((Cert.Spec.cosv x y b n k : ℝ) : EReal) := by
  unfold Cert.KernelIdeal.Fns.dotAt Cert.Spec.cosv
  rw [← Cert.LibCoe.sum_coe]
  refine Finset.sum_congr rfl fun j _ => ?_
  rw [Cert.KernelIdeal.Pre.V1_v21_apply m ρ c x y hx hy b n j, Cert.KernelIdeal.Pre.V1_v25_apply m ρ c y hy b k j,
    Cert.LibCoe.mul_coe]

/-- THE KERNEL'S VALUE: from coerced real arguments the result array holds the coerced results of the specification. -/
theorem value (c : Dev nD) (x y : Cert.Spec.Arr)
    (hx : m ((c.tc : Thread nD τ).loc main_arg0) = Cert.Coe.coeArr x)
    (hy : m ((c.tc : Thread nD τ).loc main_arg1) = Cert.Coe.coeArr y) (b : Fin 4) :
    (W4 m ρ c (Proc.devRef .tc main_v44) : FVec Ideal S4 .f32) (ix1 b) = ((Cert.Spec.outR x y b : ℝ) : EReal) := by
  rw [Cert.KernelIdeal.Tail.W4_v44_apply m ρ c b, W3_v26 m ρ c, W3_v27 m ρ c]
  exact Cert.KernelIdeal.Epilogue.kernel_value _ _ (Cert.Spec.cosv x y) (Cert.Spec.cosv_le_one x y)
    (dot_coe m ρ c x y hx hy) b

end Cert.KernelIdeal.KValue

end
-- ==== Proof.Finite.lean ====
/-
  From the precondition to real arrays. The precondition says that the absolute value of every entry of both
  arguments is strictly below `+∞`; an extended real with that property is neither `⊤` nor `⊥`, so it is the
  coercion of a real. Hence both arguments are coerced real arrays.
-/
import proofs.«160792_j27754078667510_1_alg».proof.Pre_finite_inputs
import proofs.«160792_j27754078667510_1_alg».proof.Proof.Gen.Pre_finite_inputs
import proofs.«160792_j27754078667510_1_alg».proof.Proof.Coe
import Idealize.ShloMosaic.Lib.ReduceAll
import Idealize.ShloMosaic.PureOps.Ideal.Laws

noncomputable section

namespace Cert.Finite

open Idealize.ShloMosaic Idealize.ShloMosaic.ValueIdx

/-- The shape of a scalar has exactly one index. -/
private instance : Subsingleton Cert.Pre_finite_inputs.S_.Idx := ⟨fun _ _ => funext fun d => d.elim0⟩

/-- The single-precision pattern of `+∞` denotes `⊤`. -/
private theorem ofBits_inf : Ideal.ofBits .f32 0x7F800000#32 = (⊤ : EReal) := by
  simp [Ideal.ofBits, Ideal.ieee]

/-- An extended real whose absolute value compares strictly below `+∞` is neither infinity. -/
private theorem ne_top_bot (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  rw [Ideal.hostAbsf_def, Ideal.cmpf_def, Ideal.absf_def, Ideal.ofBits_def, ofBits_inf] at h
  unfold Ideal.cmp at h
  have hlt : max (x : EReal) (-(x : EReal)) < ⊤ := by
    by_contra hn
    simp [hn] at h
  rw [max_lt_iff] at hlt
  refine ⟨ne_of_lt hlt.1, ?_⟩
  intro hb
  have := hlt.2
  rw [hb] at this
  simp at this

/-- An array all of whose entries pass the comparison is the coercion of a real array. -/
private theorem real_of_all (X : FVec Ideal Cert.Pre_finite_inputs.S4x64x64x128 .f32)
    (h : ∀ i, FloatOps.cmpf .olt (FloatOps.hostAbsf (X i)) (FloatOps.ofBits (F := Ideal) .f32 0x7F800000#32) = 1#1) :
    ∃ x : Cert.Spec.Arr, X = Cert.Coe.coeArr x := by
  refine ⟨fun b hh w c => (X (ix4 b hh w c)).toReal, ?_⟩
  funext i
  obtain ⟨a, b, c, d, rfl⟩ : ∃ a b c d, i = ix4 a b c d := ⟨_, _, _, _, eq_ix4 i⟩
  rw [Cert.Coe.coeArr_ix4]
  obtain ⟨h1, h2⟩ := ne_top_bot _ (h (ix4 a b c d))
  exact (EReal.coe_toReal h1 h2).symm

theorem exists_real (X Y : FVec Ideal Cert.Pre_finite_inputs.S4x64x64x128 .f32)
    (h : Cert.Pre_finite_inputs.fn (F := Ideal) X Y = fun _ => 1#1) :
    ∃ x y : Cert.Spec.Arr, X = Cert.Coe.coeArr x ∧ Y = Cert.Coe.coeArr y := by
  have h0 := congrFun h ValueIdx.ix0
  dsimp only [Cert.Pre_finite_inputs.fn] at h0
  obtain ⟨hX, hY⟩ := IntOp.andi_eq_one.1 h0
  obtain ⟨x, hx⟩ := real_of_all X (fun i => Host.reduce_andi_all _ _ _ _ _ hX i)
  obtain ⟨y, hy⟩ := real_of_all Y (fun i => Host.reduce_andi_all _ _ _ _ _ hY i)
  exact ⟨x, y, hx, hy⟩

end Cert.Finite

end
-- ==== Proof.RefPre.lean ====
/-
  The reference's first half read at an index. From coerced real arguments the reference's two normalised arrays
  (channel-major, 4 × 128 × 4096) hold the coerced unit vectors of the specification, so its 4 × 4096 × 4096 matrix
  of inner products holds the coerced cosines.
-/
import proofs.«160792_j27754078667510_1_alg».proof.Proof.Gen.ReferenceIdeal.Read
import proofs.«160792_j27754078667510_1_alg».proof.Proof.Coe
import proofs.«160792_j27754078667510_1_alg».proof.Proof.LibCoe
import proofs.«160792_j27754078667510_1_alg».proof.Proof.Consts
import Idealize.ShloMosaic.Lib.IdealHost

set_option maxRecDepth 16384

noncomputable section

namespace Cert.ReferenceIdeal.RefPre

open Idealize.ShloMosaic Idealize.ShloMosaic.TcCoe Idealize.ShloMosaic.ValueIdx Idealize.SL.Sem
open Cert.ReferenceIdeal Cert.ReferenceIdeal.Read

/-! ### The flattening of the 64 × 64 positions, coordinate by coordinate

The row-major offset of (b, k, n) in a 4 × 128 × 4096 array is (128 b + k) · 4096 + n; read as an offset of a
4 × 128 × 64 × 64 array its four coordinates are b, k, n / 64 and n % 64. -/

private theorem off0 (b : Fin 4) (k : Fin 128) (n : Fin 4096) :
    ((b.val * 128 + k.val) * 4096 + n.val) / 524288 = b.val := by
  have := b.isLt; have := k.isLt; have := n.isLt; omega

private theorem off1 (b : Fin 4) (k : Fin 128) (n : Fin 4096) :
    ((b.val * 128 + k.val) * 4096 + n.val) / 4096 % 128 = k.val := by
  have := b.isLt; have := k.isLt; have := n.isLt; omega

private theorem off2 (b : Fin 4) (k : Fin 128) (n : Fin 4096) :
    ((b.val * 128 + k.val) * 4096 + n.val) / 64 % 64 = n.val / 64 := by
  have := b.isLt; have := k.isLt; have := n.isLt; omega

private theorem off3 (b : Fin 4) (k : Fin 128) (n : Fin 4096) :
    ((b.val * 128 + k.val) * 4096 + n.val) % 64 = n.val % 64 := by
  have := b.isLt; have := k.isLt; have := n.isLt; omega

/-- The flattened index (b, k, n) is the grid index (b, k, row of n, column of n). -/
private theorem idx2_ix3 (b : Fin 4) (k : Fin 128) (n : Fin 4096) :
    idx_main_v2 (ix3 b k n) = ix4 b k (Cert.Spec.rowOf n) (Cert.Spec.colOf n) :=
  funext fun a => Fin.ext (by
    match a with
    | ⟨0, _⟩ => exact off0 b k n
    | ⟨1, _⟩ => exact off1 b k n
    | ⟨2, _⟩ => exact off2 b k n
    | ⟨3, _⟩ => exact off3 b k n)

private theorem idx11_ix3 (b : Fin 4) (k : Fin 128) (n : Fin 4096) :
    idx_main_v11 (ix3 b k n) = ix4 b k (Cert.Spec.rowOf n) (Cert.Spec.colOf n) := idx2_ix3 b k n

private theorem idx12_ix3 (b : Fin 4) (k : Fin 128) (n : Fin 4096) :
    idx_main_v12 (ix3 b k n) = ix4 b k (Cert.Spec.rowOf n) (Cert.Spec.colOf n) := idx2_ix3 b k n

/-! ### The transposed arguments -/

private theorem v0_ix4 (x : Cert.Spec.Arr) (b : Fin 4) (k : Fin 128) (h w : Fin 64) :
    val_main_v0 (F := Ideal) (Cert.Coe.coeArr x) (ix4 b k h w) = ((x b h w k : ℝ) : EReal) := by
  rw [val_main_v0_apply]; rfl

private theorem v1_ix4 (y : Cert.Spec.Arr) (b : Fin 4) (k : Fin 128) (h w : Fin 64) :
    val_main_v1 (F := Ideal) (Cert.Coe.coeArr y) (ix4 b k h w) = ((y b h w k : ℝ) : EReal) := by
  rw [val_main_v1_apply]; rfl

private theorem v2_ix3 (y : Cert.Spec.Arr) (b : Fin 4) (k : Fin 128) (n : Fin 4096) :
    val_main_v2 (F := Ideal) (Cert.Coe.coeArr y) (ix3 b k n) = ((Cert.Spec.flat y b n k : ℝ) : EReal) := by
  rw [val_main_v2_apply, idx2_ix3, v1_ix4]; rfl

/-! ### The mean over the positions -/

private theorem idx3_ix2 (b : Fin 4) (k : Fin 128) (n : Fin 4096) :
    idx_main_v3 (ix2 b k) n = ix3 b k n :=
  funext fun a => Fin.ext (by match a with | ⟨0, _⟩ => rfl | ⟨1, _⟩ => rfl | ⟨2, _⟩ => rfl)

private theorem v5_ix2 (y : Cert.Spec.Arr) (b : Fin 4) (k : Fin 128) :
    val_main_v5 (F := Ideal) (Cert.Coe.coeArr y) (ix2 b k) = ((Cert.Spec.meanY y b k : ℝ) : EReal) := by
  have hs : ∀ n : Fin 4096, val_main_v2 (F := Ideal) (Cert.Coe.coeArr y) (idx_main_v3 (ix2 b k) n)
      = ((Cert.Spec.flat y b n k : ℝ) : EReal) := fun n => by rw [idx3_ix2, v2_ix3]
  rw [val_main_v5_apply, val_main_v3_apply, val_main_v4_apply, val_main_cst_apply, val_main_cst_0_apply]
  simp only [hs, Ideal.ofBits_def, Ideal.hostDivf_def]
  rw [Cert.LibCoe.ofBits_zero, Cert.Consts.ofBits_4096, Cert.LibCoe.sum_coe, Cert.LibCoe.add_coe,
    Cert.LibCoe.div_coe_coe _ (by norm_num), zero_add]
  rfl

/-! ### The centred arrays -/

private theorem idx67_ix4 (b : Fin 4) (k : Fin 128) (h w : Fin 64) :
    idx_main_v6 (idx_main_v7 (ix4 b k h w)) = ix2 b k :=
  funext fun a => Fin.ext (by match a with | ⟨0, _⟩ => rfl | ⟨1, _⟩ => rfl)

private theorem idx69_ix4 (b : Fin 4) (k : Fin 128) (h w : Fin 64) :
    idx_main_v6 (idx_main_v9 (ix4 b k h w)) = ix2 b k :=
  funext fun a => Fin.ext (by match a with | ⟨0, _⟩ => rfl | ⟨1, _⟩ => rfl)

private theorem v11_ix3 (x y : Cert.Spec.Arr) (b : Fin 4) (k : Fin 128) (n : Fin 4096) :
    val_main_v11 (F := Ideal) (Cert.Coe.coeArr x) (Cert.Coe.coeArr y) (ix3 b k n)
      = ((Cert.Spec.cen x y b n k : ℝ) : EReal) := by
  rw [val_main_v11_apply, idx11_ix3, val_main_v8_apply, v0_ix4, val_main_v7_apply, val_main_v6_apply,
    idx67_ix4, v5_ix2]
  simp only [Ideal.subf_def]
  rw [Cert.LibCoe.sub_coe]
  rfl

private theorem v12_ix3 (y : Cert.Spec.Arr) (b : Fin 4) (k : Fin 128) (n : Fin 4096) :
    val_main_v12 (F := Ideal) (Cert.Coe.coeArr y) (ix3 b k n)
      = ((Cert.Spec.cen y y b n k : ℝ) : EReal) := by
  rw [val_main_v12_apply, idx12_ix3, val_main_v10_apply, v1_ix4, val_main_v9_apply, val_main_v6_apply,
    idx69_ix4, v5_ix2]
  simp only [Ideal.subf_def]
  rw [Cert.LibCoe.sub_coe]
  rfl

/-! ### The lengths plus the guard -/

private theorem idxc1_ix2 (b : Fin 4) (n : Fin 4096) (k : Fin 128) :
    idx_main_call0_v1 (ix2 b n) k = ix3 b k n :=
  funext fun a => Fin.ext (by match a with | ⟨0, _⟩ => rfl | ⟨1, _⟩ => rfl | ⟨2, _⟩ => rfl)

private theorem idxd1_ix2 (b : Fin 4) (n : Fin 4096) (k : Fin 128) :
    idx_main_call1_v1 (ix2 b n) k = ix3 b k n :=
  funext fun a => Fin.ext (by match a with | ⟨0, _⟩ => rfl | ⟨1, _⟩ => rfl | ⟨2, _⟩ => rfl)

private theorem idxc2_ix3 (b : Fin 4) (n : Fin 4096) :
    idx_main_call0_v2 (ix3 b (0 : Fin 1) n) = ix2 b n :=
  funext fun a => Fin.ext (by match a with | ⟨0, _⟩ => rfl | ⟨1, _⟩ => rfl)

private theorem idxd2_ix3 (b : Fin 4) (n : Fin 4096) :
    idx_main_call1_v2 (ix3 b (0 : Fin 1) n) = ix2 b n :=
  funext fun a => Fin.ext (by match a with | ⟨0, _⟩ => rfl | ⟨1, _⟩ => rfl)

private theorem sq_nonneg_sum (x y : Cert.Spec.Arr) (b : Fin 4) (n : Fin 4096) :
    ¬ (∑ c : Fin 128, Cert.Spec.cen x y b n c * Cert.Spec.cen x y b n c) < 0 :=
  not_lt.mpr (Finset.sum_nonneg fun c _ => mul_self_nonneg _)

private theorem c0v1_ix2 (x y : Cert.Spec.Arr) (b : Fin 4) (n : Fin 4096) :
    val_main_call0_v1 (F := Ideal) (Cert.Coe.coeArr x) (Cert.Coe.coeArr y) (ix2 b n)
      = ((∑ c : Fin 128, Cert.Spec.cen x y b n c * Cert.Spec.cen x y b n c : ℝ) : EReal) := by
  have hs : ∀ k : Fin 128, val_main_call0_v0 (F := Ideal) (Cert.Coe.coeArr x) (Cert.Coe.coeArr y)
      (idx_main_call0_v1 (ix2 b n) k)
      = ((Cert.Spec.cen x y b n k * Cert.Spec.cen x y b n k : ℝ) : EReal) := fun k => by
    rw [idxc1_ix2, val_main_call0_v0_apply, v11_ix3]
    simp only [Ideal.mulf_def]
    rw [Cert.LibCoe.mul_coe]
  rw [val_main_call0_v1_apply, val_main_call0_cst_apply]
  simp only [hs, Ideal.ofBits_def]
  rw [Cert.LibCoe.ofBits_zero, Cert.LibCoe.sum_coe, Cert.LibCoe.add_coe, zero_add]

private theorem c1v1_ix2 (y : Cert.Spec.Arr) (b : Fin 4) (n : Fin 4096) :
    val_main_call1_v1 (F := Ideal) (Cert.Coe.coeArr y) (ix2 b n)
      = ((∑ c : Fin 128, Cert.Spec.cen y y b n c * Cert.Spec.cen y y b n c : ℝ) : EReal) := by
  have hs : ∀ k : Fin 128, val_main_call1_v0 (F := Ideal) (Cert.Coe.coeArr y)
      (idx_main_call1_v1 (ix2 b n) k)
      = ((Cert.Spec.cen y y b n k * Cert.Spec.cen y y b n k : ℝ) : EReal) := fun k => by
    rw [idxd1_ix2, val_main_call1_v0_apply, v12_ix3]
    simp only [Ideal.mulf_def]
    rw [Cert.LibCoe.mul_coe]
  rw [val_main_call1_v1_apply, val_main_call1_cst_apply]
  simp only [hs, Ideal.ofBits_def]
  rw [Cert.LibCoe.ofBits_zero, Cert.LibCoe.sum_coe, Cert.LibCoe.add_coe, zero_add]

private theorem v15_ix3 (x y : Cert.Spec.Arr) (b : Fin 4) (n : Fin 4096) :
    val_main_v15 (F := Ideal) (Cert.Coe.coeArr x) (Cert.Coe.coeArr y) (ix3 b (0 : Fin 1) n)
      = ((Cert.Spec.nrm x y b n + Cert.Consts.epsN : ℝ) : EReal) := by
  rw [val_main_v15_apply, val_main_v13_apply, val_main_call0_v2_apply, idxc2_ix3, c0v1_ix2,
    val_main_v14_apply, val_main_cst_1_apply]
  simp only [Ideal.addf_def, Ideal.hostUnary_sqrt_def, Ideal.ofBits_def, Ideal.sqrt_coe]
  rw [if_neg (sq_nonneg_sum x y b n), Cert.Consts.ofBits_epsN, Cert.LibCoe.add_coe]
  rfl

private theorem v20_ix3 (y : Cert.Spec.Arr) (b : Fin 4) (n : Fin 4096) :
    val_main_v20 (F := Ideal) (Cert.Coe.coeArr y) (ix3 b (0 : Fin 1) n)
      = ((Cert.Spec.nrm y y b n + Cert.Consts.epsN : ℝ) : EReal) := by
  rw [val_main_v20_apply, val_main_v18_apply, val_main_call1_v2_apply, idxd2_ix3, c1v1_ix2,
    val_main_v19_apply, val_main_cst_2_apply]
  simp only [Ideal.addf_def, Ideal.hostUnary_sqrt_def, Ideal.ofBits_def, Ideal.sqrt_coe]
  rw [if_neg (sq_nonneg_sum y y b n), Cert.Consts.ofBits_epsN, Cert.LibCoe.add_coe]
  rfl

/-! ### The unit vectors -/

private theorem den_ne (x y : Cert.Spec.Arr) (b : Fin 4) (n : Fin 4096) :
    Cert.Spec.nrm x y b n + Cert.Consts.epsN ≠ 0 :=
  ne_of_gt (add_pos_of_nonneg_of_pos (Real.sqrt_nonneg _) Cert.Consts.epsN_pos)

private theorem idx16_ix3 (b : Fin 4) (k : Fin 128) (n : Fin 4096) :
    idx_main_v16 (ix3 b k n) = ix3 b (0 : Fin 1) n :=
  funext fun a => Fin.ext (by match a with | ⟨0, _⟩ => rfl | ⟨1, _⟩ => rfl | ⟨2, _⟩ => rfl)

private theorem idx21_ix3 (b : Fin 4) (k : Fin 128) (n : Fin 4096) :
    idx_main_v21 (ix3 b k n) = ix3 b (0 : Fin 1) n :=
  funext fun a => Fin.ext (by match a with | ⟨0, _⟩ => rfl | ⟨1, _⟩ => rfl | ⟨2, _⟩ => rfl)

private theorem v17_ix3 (x y : Cert.Spec.Arr) (b : Fin 4) (k : Fin 128) (n : Fin 4096) :
    val_main_v17 (F := Ideal) (Cert.Coe.coeArr x) (Cert.Coe.coeArr y) (ix3 b k n)
      = ((Cert.Spec.unit x y b n k : ℝ) : EReal) := by
  rw [val_main_v17_apply, v11_ix3, val_main_v16_apply, idx16_ix3, v15_ix3]
  simp only [Ideal.hostDivf_def]
  rw [Cert.LibCoe.div_coe_coe _ (den_ne x y b n)]
  rfl

private theorem v22_ix3 (y : Cert.Spec.Arr) (b : Fin 4) (k : Fin 128) (n : Fin 4096) :
    val_main_v22 (F := Ideal) (Cert.Coe.coeArr y) (ix3 b k n)
      = ((Cert.Spec.unit y y b n k : ℝ) : EReal) := by
  rw [val_main_v22_apply, v12_ix3, val_main_v21_apply, idx21_ix3, v20_ix3]
  simp only [Ideal.hostDivf_def]
  rw [Cert.LibCoe.div_coe_coe _ (den_ne y y b n)]
  rfl

/-! ### The inner products -/

private theorem lidx_ix3 (b : Fin 4) (n m : Fin 4096) (k : Fin 128) :
    lidx_main_v23 (ix3 b n m) k = ix3 b k n :=
  funext fun a => Fin.ext (by match a with | ⟨0, _⟩ => rfl | ⟨1, _⟩ => rfl | ⟨2, _⟩ => rfl)

private theorem ridx_ix3 (b : Fin 4) (n m : Fin 4096) (k : Fin 128) :
    ridx_main_v23 (ix3 b n m) k = ix3 b k m :=
  funext fun a => Fin.ext (by match a with | ⟨0, _⟩ => rfl | ⟨1, _⟩ => rfl | ⟨2, _⟩ => rfl)

theorem v23_apply (x y : Cert.Spec.Arr) (b : Fin 4) (n m : Fin 4096) :
    val_main_v23 (F := Ideal) (Cert.Coe.coeArr x) (Cert.Coe.coeArr y) (ix3 b n m)
      = ((Cert.Spec.cosv x y b n m : ℝ) : EReal) := by
  have hs : ∀ k : Fin 128,
      val_main_v17 (F := Ideal) (Cert.Coe.coeArr x) (Cert.Coe.coeArr y) (lidx_main_v23 (ix3 b n m) k)
        * val_main_v22 (F := Ideal) (Cert.Coe.coeArr y) (ridx_main_v23 (ix3 b n m) k)
      = ((Cert.Spec.unit x y b n k * Cert.Spec.unit y y b m k : ℝ) : EReal) := fun k => by
    rw [lidx_ix3, ridx_ix3, v17_ix3, v22_ix3, Cert.LibCoe.mul_coe]
  rw [val_main_v23_apply]
  simp only [hs]
  rw [Cert.LibCoe.sum_coe]
  rfl

end Cert.ReferenceIdeal.RefPre

end
-- ==== Proof.RefEpilogue.lean ====
/-
  The reference's second half from real cosines. When the matrix of inner products holds coerced reals
  `cs b n m ≤ 1`, each later stage holds coerced reals too: the distances, the row minimum (a fold of `min` from
  `+∞`), the guarded quotient, the weights, their row sums, the normalised weights, the row maximum (a fold of
  `max` from `-∞`), the mean over the rows and minus its logarithm. By the row law the row maximum is the row's
  value, so the result is the coercion of the specification's.
-/
import proofs.«160792_j27754078667510_1_alg».proof.Proof.Gen.ReferenceIdeal.Read
import proofs.«160792_j27754078667510_1_alg».proof.Proof.Coe
import proofs.«160792_j27754078667510_1_alg».proof.Proof.LibCoe
import proofs.«160792_j27754078667510_1_alg».proof.Proof.Consts
import Idealize.ShloMosaic.Lib.IdealHost
import proofs.«160792_j27754078667510_1_alg».proof.Proof.LibFold
import proofs.«160792_j27754078667510_1_alg».proof.Proof.RowMath
import Mathlib.Analysis.SpecialFunctions.Log.Basic

set_option maxRecDepth 16384

noncomputable section

namespace Cert.ReferenceIdeal.RefEpilogue

open Idealize.ShloMosaic Idealize.ShloMosaic.TcCoe Idealize.ShloMosaic.ValueIdx Idealize.SL.Sem Finset
open Cert.ReferenceIdeal Cert.ReferenceIdeal.Read Cert.Consts

section Stages

variable (X Y : (⟨S4x64x64x128, .f32⟩ : BufTy).Contents (Elt Ideal)) (cs : Fin 4 → Fin 4096 → Fin 4096 → ℝ)

/-- The smallest distance of row `(b, n)`. -/
private def dmin (cs : Fin 4 → Fin 4096 → Fin 4096 → ℝ) (b : Fin 4) (n : Fin 4096) : ℝ :=
  Cert.RowMath.rmin (fun k => 1 - cs b n k)

/-- The guarded smallest distance is positive, so it is not zero. -/
private theorem dmin_add_ne (hcs : ∀ b n m, cs b n m ≤ 1) (b : Fin 4) (n : Fin 4096) : dmin cs b n + eM ≠ 0 := by
  unfold dmin
  rw [Cert.RowMath.rmin_one_sub]
  exact (Cert.RowMath.gap_pos eM_pos _ (hcs b n)).ne'

/-- The constant one, everywhere. -/
private theorem v24 (i : S4x4096x4096.Idx) : val_main_v24 (F := Ideal) i = ((1 : ℝ) : EReal) := by
  rw [val_main_v24_apply, val_main_cst_3_apply]
  exact Cert.LibCoe.ofBits_one

/-- The distances: one minus the cosine. -/
private theorem v25 (h23 : ∀ b n m, val_main_v23 (F := Ideal) X Y (ix3 b n m) = ((cs b n m : ℝ) : EReal))
    (b : Fin 4) (n m : Fin 4096) :
    val_main_v25 (F := Ideal) X Y (ix3 b n m) = ((1 - cs b n m : ℝ) : EReal) := by
  rw [val_main_v25_apply, v24, h23, Ideal.subf_def, Cert.LibCoe.sub_coe]

/-- The row minimum of the distances: a fold of `min` from `+∞` along the last axis. -/
private theorem v26 (h23 : ∀ b n m, val_main_v23 (F := Ideal) X Y (ix3 b n m) = ((cs b n m : ℝ) : EReal))
    (b : Fin 4) (n : Fin 4096) :
    val_main_v26 (F := Ideal) X Y (ix2 b n) = ((dmin cs b n : ℝ) : EReal) := by
  have h : S4x4096x4096.Reduces [2] S4x4096 := by decide
  unfold val_main_v26
  rw [Host.reduce_eq_fold_single FloatOps.minimumf _ _ Gen.reducesTo_S4x4096x4096_S4x4096_d2 h Gen.h_S_ (ix2 b n)]
  have hf : (val_main_v25 (F := Ideal) X Y ∘ h.lift (ix2 b n))
      = fun m : Fin 4096 => ((1 - cs b n m : ℝ) : EReal) := funext fun m => by
    have hi : h.lift (ix2 b n) m = ix3 b n m :=
      funext fun a => Fin.ext (by match a with | ⟨0, _⟩ => rfl | ⟨1, _⟩ => rfl | ⟨2, _⟩ => rfl)
    show val_main_v25 (F := Ideal) X Y (h.lift (ix2 b n) m) = _
    rw [hi]
    exact v25 X Y cs h23 b n m
  have h0 : val_main_cst_4 (F := Ideal) (Shape.Idx.first Gen.h_S_) = (⊤ : EReal) := by
    rw [val_main_cst_4_apply]
    exact Cert.Consts.ofBits_pos_inf
  rw [hf, h0]
  exact Cert.LibFold.fold_min_coe (fun k => 1 - cs b n k)

/-- The guarded smallest distance, spread back over the row. -/
private theorem v30 (h23 : ∀ b n m, val_main_v23 (F := Ideal) X Y (ix3 b n m) = ((cs b n m : ℝ) : EReal))
    (b : Fin 4) (n m : Fin 4096) :
    val_main_v30 (F := Ideal) X Y (ix3 b n m) = ((dmin cs b n + eM : ℝ) : EReal) := by
  have hi : idx_main_v27 (idx_main_v30 (ix3 b n m)) = ix2 b n :=
    funext fun a => Fin.ext (by match a with | ⟨0, _⟩ => rfl | ⟨1, _⟩ => rfl)
  rw [val_main_v30_apply, val_main_v29_apply, val_main_v27_apply, val_main_v28_apply, val_main_cst_5_apply, hi,
    v26 X Y cs h23 b n, Ideal.addf_def, Ideal.ofBits_def, Cert.Consts.ofBits_eM, Cert.LibCoe.add_coe]

/-- The distance over the guarded smallest distance. -/
private theorem v31 (hcs : ∀ b n m, cs b n m ≤ 1)
    (h23 : ∀ b n m, val_main_v23 (F := Ideal) X Y (ix3 b n m) = ((cs b n m : ℝ) : EReal))
    (b : Fin 4) (n m : Fin 4096) :
    val_main_v31 (F := Ideal) X Y (ix3 b n m) = (((1 - cs b n m) / (dmin cs b n + eM) : ℝ) : EReal) := by
  rw [val_main_v31_apply, v25 X Y cs h23 b n m, v30 X Y cs h23 b n m, Ideal.hostDivf_def,
    Cert.LibCoe.div_coe_coe _ (dmin_add_ne cs hcs b n)]

/-- The constant one, everywhere (second copy). -/
private theorem v32 (i : S4x4096x4096.Idx) : val_main_v32 (F := Ideal) i = ((1 : ℝ) : EReal) := by
  rw [val_main_v32_apply, val_main_cst_6_apply]
  exact Cert.LibCoe.ofBits_one

/-- The bandwidth, everywhere. -/
private theorem v34 (i : S4x4096x4096.Idx) : val_main_v34 (F := Ideal) i = ((hP : ℝ) : EReal) := by
  rw [val_main_v34_apply, val_main_cst_7_apply]
  exact Cert.Consts.ofBits_hP

/-- The weights. -/
private theorem v36 (hcs : ∀ b n m, cs b n m ≤ 1)
    (h23 : ∀ b n m, val_main_v23 (F := Ideal) X Y (ix3 b n m) = ((cs b n m : ℝ) : EReal))
    (b : Fin 4) (n m : Fin 4096) :
    val_main_v36 (F := Ideal) X Y (ix3 b n m)
      = ((Real.exp ((1 - (1 - cs b n m) / (dmin cs b n + eM)) / hP) : ℝ) : EReal) := by
  rw [val_main_v36_apply, val_main_v35_apply, val_main_v33_apply, v32, v34, v31 X Y cs hcs h23 b n m,
    Ideal.subf_def, Cert.LibCoe.sub_coe, Ideal.hostDivf_def, Cert.LibCoe.div_coe_coe _ hP_pos.ne',
    Ideal.hostUnary_exp_def, Cert.LibCoe.exp_coe]

/-- The row sums of the weights. -/
private theorem v37 (hcs : ∀ b n m, cs b n m ≤ 1)
    (h23 : ∀ b n m, val_main_v23 (F := Ideal) X Y (ix3 b n m) = ((cs b n m : ℝ) : EReal))
    (b : Fin 4) (n : Fin 4096) :
    val_main_v37 (F := Ideal) X Y (ix2 b n)
      = ((Cert.RowMath.sumExp eM hP (dmin cs b n) (cs b n) : ℝ) : EReal) := by
  have hs : ∀ k : Fin 4096, val_main_v36 (F := Ideal) X Y (idx_main_v37 (ix2 b n) k)
      = ((Real.exp ((1 - (1 - cs b n k) / (dmin cs b n + eM)) / hP) : ℝ) : EReal) := fun k => by
    have hi : idx_main_v37 (ix2 b n) k = ix3 b n k :=
      funext fun a => Fin.ext (by match a with | ⟨0, _⟩ => rfl | ⟨1, _⟩ => rfl | ⟨2, _⟩ => rfl)
    rw [hi]
    exact v36 X Y cs hcs h23 b n k
  rw [val_main_v37_apply, val_main_cst_8_apply, Ideal.ofBits_def, Cert.LibCoe.ofBits_zero,
    Finset.sum_congr rfl (fun k _ => hs k), Cert.LibCoe.sum_coe, Cert.LibCoe.add_coe, zero_add]
  rfl

/-- The normalised weights. -/
private theorem v40 (hcs : ∀ b n m, cs b n m ≤ 1)
    (h23 : ∀ b n m, val_main_v23 (F := Ideal) X Y (ix3 b n m) = ((cs b n m : ℝ) : EReal))
    (b : Fin 4) (n m : Fin 4096) :
    val_main_v40 (F := Ideal) X Y (ix3 b n m)
      = ((Real.exp ((1 - (1 - cs b n m) / (dmin cs b n + eM)) / hP)
          / Cert.RowMath.sumExp eM hP (dmin cs b n) (cs b n) : ℝ) : EReal) := by
  have hi : idx_main_v38 (idx_main_v39 (ix3 b n m)) = ix2 b n :=
    funext fun a => Fin.ext (by match a with | ⟨0, _⟩ => rfl | ⟨1, _⟩ => rfl)
  rw [val_main_v40_apply, val_main_v39_apply, val_main_v38_apply, hi, v36 X Y cs hcs h23 b n m,
    v37 X Y cs hcs h23 b n, Ideal.hostDivf_def,
    Cert.LibCoe.div_coe_coe _ (Cert.RowMath.sumExp_pos _ _ _ _).ne']

/-- The row maximum of the normalised weights, a fold of `max` from `-∞` along the last axis, is the row's value. -/
private theorem v41 (hcs : ∀ b n m, cs b n m ≤ 1)
    (h23 : ∀ b n m, val_main_v23 (F := Ideal) X Y (ix3 b n m) = ((cs b n m : ℝ) : EReal))
    (b : Fin 4) (n : Fin 4096) :
    val_main_v41 (F := Ideal) X Y (ix2 b n) = ((Cert.RowMath.rowVal eM hP (cs b n) : ℝ) : EReal) := by
  have h : S4x4096x4096.Reduces [2] S4x4096 := by decide
  unfold val_main_v41
  rw [Host.reduce_eq_fold_single FloatOps.maximumf _ _ Gen.reducesTo_S4x4096x4096_S4x4096_d2 h Gen.h_S_ (ix2 b n)]
  have hf : (val_main_v40 (F := Ideal) X Y ∘ h.lift (ix2 b n))
      = fun m : Fin 4096 => ((Real.exp ((1 - (1 - cs b n m) / (dmin cs b n + eM)) / hP)
          / Cert.RowMath.sumExp eM hP (dmin cs b n) (cs b n) : ℝ) : EReal) := funext fun m => by
    have hi : h.lift (ix2 b n) m = ix3 b n m :=
      funext fun a => Fin.ext (by match a with | ⟨0, _⟩ => rfl | ⟨1, _⟩ => rfl | ⟨2, _⟩ => rfl)
    show val_main_v40 (F := Ideal) X Y (h.lift (ix2 b n) m) = _
    rw [hi]
    exact v40 X Y cs hcs h23 b n m
  have h0 : val_main_cst_9 (F := Ideal) (Shape.Idx.first Gen.h_S_) = (⊥ : EReal) := by
    rw [val_main_cst_9_apply]
    exact Cert.LibCoe.ofBits_neg_inf
  rw [hf, h0]
  refine Eq.trans (Cert.LibFold.fold_max_coe _) (congrArg _ ?_)
  exact Cert.RowMath.ref_row eM_pos hP_pos (cs b n) (hcs b n)

/-- The sum over the rows. -/
private theorem v42 (hcs : ∀ b n m, cs b n m ≤ 1)
    (h23 : ∀ b n m, val_main_v23 (F := Ideal) X Y (ix3 b n m) = ((cs b n m : ℝ) : EReal)) (b : Fin 4) :
    val_main_v42 (F := Ideal) X Y (ix1 b)
      = ((∑ n : Fin 4096, Cert.RowMath.rowVal eM hP (cs b n) : ℝ) : EReal) := by
  have hs : ∀ k : Fin 4096, val_main_v41 (F := Ideal) X Y (idx_main_v42 (ix1 b) k)
      = ((Cert.RowMath.rowVal eM hP (cs b k) : ℝ) : EReal) := fun k => by
    have hi : idx_main_v42 (ix1 b) k = ix2 b k :=
      funext fun a => Fin.ext (by match a with | ⟨0, _⟩ => rfl | ⟨1, _⟩ => rfl)
    rw [hi]
    exact v41 X Y cs hcs h23 b k
  rw [val_main_v42_apply, val_main_cst_10_apply, Ideal.ofBits_def, Cert.LibCoe.ofBits_zero,
    Finset.sum_congr rfl (fun k _ => hs k), Cert.LibCoe.sum_coe, Cert.LibCoe.add_coe, zero_add]

/-- The number of rows, everywhere. -/
private theorem v43 (i : S4.Idx) : val_main_v43 (F := Ideal) i = ((4096 : ℝ) : EReal) := by
  rw [val_main_v43_apply, val_main_cst_11_apply]
  exact Cert.Consts.ofBits_4096

end Stages

theorem ref_value (X Y : (⟨S4x64x64x128, .f32⟩ : BufTy).Contents (Elt Ideal)) (cs : Fin 4 → Fin 4096 → Fin 4096 → ℝ)
    (hcs : ∀ b n m, cs b n m ≤ 1)
    (h23 : ∀ b n m, val_main_v23 (F := Ideal) X Y (ix3 b n m) = ((cs b n m : ℝ) : EReal)) (b : Fin 4) :
    val_main_v46 (F := Ideal) X Y (ix1 b)
      = ((-Real.log ((∑ n : Fin 4096, Cert.RowMath.rowVal eM hP (cs b n)) / 4096) : ℝ) : EReal) := by
  -- the mean of the rows' values is positive: every row's value is
  have hpos : 0 < (∑ n : Fin 4096, Cert.RowMath.rowVal eM hP (cs b n)) / 4096 :=
    div_pos (Finset.sum_pos (fun n _ => Cert.RowMath.rowVal_pos _ _ _) Cert.RowMath.ne4096) (by norm_num)
  rw [val_main_v46_apply, val_main_v45_apply, val_main_v44_apply, v42 X Y cs hcs h23 b, v43,
    Ideal.hostDivf_def, Cert.LibCoe.div_coe_coe _ (by norm_num : (4096 : ℝ) ≠ 0),
    Ideal.hostUnary_log_def, Cert.LibCoe.log_coe_pos hpos, Ideal.hostNegf_def, Ideal.negf_def, Cert.LibCoe.neg_coe]

end Cert.ReferenceIdeal.RefEpilogue

end
-- ==== Proof.lean ====
/-
  A contextual loss, computed two ways, is one function of its inputs over the reals.

  Both programs centre the two 4 × 64 × 64 × 128 feature arrays by the mean of the second over the 4096 positions,
  divide every position's 128-channel vector by its length plus 1e-10, and form, per batch, the 4096 × 4096 matrix
  of cosines. The reference turns cosines into distances `d = 1 - cos`, divides each row by its minimum plus 1e-3,
  exponentiates `(1 - d_norm) / 0.1`, normalises each row by its sum, takes each row's maximum, averages the 4096
  maxima and returns minus the logarithm. The kernel never forms the matrix: one pass takes each row's largest
  cosine, a second each row's sum of weights, and the row's maximum is taken to be the weight AT the smallest
  distance, `exp ((1e-3 / (d_min + 1e-3)) / 0.1)`, over the sum.

  The two agree because the weight falls as the distance grows — WHEN the divisor `d_min + 1e-3` is positive —
  and because `1 - d_min / (d_min + e) = e / (d_min + e)`. The divisor is positive since every cosine is at
  most one: both factors are vectors divided by MORE than their length, and Cauchy–Schwarz bounds their inner
  product. All of this is arithmetic of real numbers, which is where finiteness of the inputs is used: from finite
  inputs every intermediate value of both programs is a real number, and every division is by a non-zero one.

  The frames of the two kernel programs are the generated ones; the reference's frame is its generated run with the
  result dropped; the ideal pass rewrote nothing, so the idealisation claim is trivial.
-/
import proofs.«160792_j27754078667510_1_alg».proof.Defs
import proofs.«160792_j27754078667510_1_alg».proof.Proof.Gen.Kernel
import proofs.«160792_j27754078667510_1_alg».proof.Proof.Gen.Kernel.Skeleton
import proofs.«160792_j27754078667510_1_alg».proof.Proof.Gen.Kernel.Launch
import proofs.«160792_j27754078667510_1_alg».proof.Proof.Gen.Kernel.Points
import proofs.«160792_j27754078667510_1_alg».proof.Proof.Gen.Kernel.Frame
import proofs.«160792_j27754078667510_1_alg».proof.Proof.Gen.KernelIdeal
import proofs.«160792_j27754078667510_1_alg».proof.Proof.Gen.KernelIdeal.Skeleton
import proofs.«160792_j27754078667510_1_alg».proof.Proof.Gen.KernelIdeal.Launch
import proofs.«160792_j27754078667510_1_alg».proof.Proof.Gen.KernelIdeal.Points
import proofs.«160792_j27754078667510_1_alg».proof.Proof.Gen.KernelIdeal.Frame
import proofs.«160792_j27754078667510_1_alg».proof.Proof.Gen.ReferenceIdeal
import proofs.«160792_j27754078667510_1_alg».proof.Proof.Gen.Pre_finite_inputs
import proofs.«160792_j27754078667510_1_alg».proof.Proof.Gen.ReferenceIdeal.Run
import proofs.«160792_j27754078667510_1_alg».proof.Proof.Gen.ReferenceIdeal.Read
import proofs.«160792_j27754078667510_1_alg».proof.Proof.KernelRun
import proofs.«160792_j27754078667510_1_alg».proof.Proof.KernelValue
import proofs.«160792_j27754078667510_1_alg».proof.Proof.Finite
import proofs.«160792_j27754078667510_1_alg».proof.Proof.RefPre
import proofs.«160792_j27754078667510_1_alg».proof.Proof.RefEpilogue
import proofs.«160792_j27754078667510_1_alg».proof.Proof.SpecBound
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments: the generated frame. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From finite inputs that agree, both programs end with the same four numbers: the kernel's result array holds the
    coerced results of the specification (its two regions and three host stretches read at an index), and so does
    the reference's (its generated run, read one operation at a time). -/
theorem algebraic : Cert.algebraic_KernelIdeal_ReferenceIdeal := by
  intro m ρ m' ρ' hpre hagree
  refine ⟨fun c => Cert.KernelIdeal.Gen.W4 m ρ c (Proc.devRef .tc Cert.KernelIdeal.main_v44),
    Cert.KernelIdeal.Run.run_v44 m ρ, ?_⟩
  refine (θ_run Cert.ReferenceIdeal.defs _ _).mono (fun _ h c => ⟨(h c).1.trans ?_, (h c).2⟩)
    (Cert.ReferenceIdeal.Value.run (F := Ideal) m' ρ')
  obtain ⟨x, y, hx, hy⟩ := Cert.Finite.exists_real _ _ (hpre c)
  rw [Cert.ReferenceIdeal.Read.val_main_v46_eq, (hagree c).1, (hagree c).2, hx, hy]
  funext i
  obtain ⟨b, rfl⟩ : ∃ b : Fin 4, i = ix1 b := ⟨i 0, eq_ix1 i⟩
  exact (Cert.ReferenceIdeal.RefEpilogue.ref_value _ _ (Cert.Spec.cosv x y) (Cert.Spec.cosv_le_one x y)
      (Cert.ReferenceIdeal.RefPre.v23_apply x y) b).trans
    (Cert.KernelIdeal.KValue.value m ρ c x y hx hy b).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
